-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S4096x8 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S128x1 : Shape := ⟨2, ![128, 1]⟩
abbrev S128 : Shape := ⟨1, ![128]⟩
abbrev S128x1024 : Shape := ⟨2, ![128, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x16 .f32) (main_arg12 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S1x16 .f32 := Host.absf main_arg11
  let main_cst_20 : FVec F S_ .f32 := constant S_ .f32 0x7F800000#32
  let main_v55 : FVec F S1x16 .f32 := broadcastInDim S1x16 ![] bcast_S_S1x16 main_cst_20
  let main_v56 : IVec S1x16 1 := cmpf .olt main_v54 main_v55
  let main_c_21 : IVec S_ 1 := constantI S_ 1 1#1
  let main_v57 : IVec S_ 1 := (fun x v => Host.reduce IntOp.andi x v reducesTo_S1x16_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x64 .f32) (main_arg8 : FVec F S32 .f32) (main_arg9 : FVec F S16x32 .f32) (main_arg10 : FVec F S16 .f32) (main_arg11 : FVec F S1x16 .f32) (main_arg12 : FVec F S1 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S16x32 .f32 := Host.absf main_arg9
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_v48 main_v49 main_v50

def fn_part1 {F : FTy → Type} [FloatOps F] (main_arg4 : FVec F S128 .f32) (main_arg5 : FVec F S64x128 .f32) (main_arg6 : FVec F S64 .f32) (main_arg7 : FVec F S32x64 .f32) (main_arg8 : FVec F S32 .f32) (main_arg9 : FVec F S16x32 .f32) (main_arg10 : FVec F S16 .f32) (main_arg11 : FVec F S1x16 .f32) (main_arg12 : FVec F S1 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1048576x8 .f32) (main_arg1 : FVec F S128x1 .f32) (main_arg2 : FVec F S128 .f32) (main_arg3 : FVec F S128x1024 .f32) (main_arg4 : FVec F S128 .f32) (main_arg5 : FVec F S64x128 .f32) (main_arg6 : FVec F S64 .f32) (main_arg7 : FVec F S32x64 .f32) (main_arg8 : FVec F S32 .f32) (main_arg9 : FVec F S16x32 .f32) (main_arg10 : FVec F S16 .f32) (main_arg11 : FVec F S1x16 .f32) (main_arg12 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S128x1 .f32 := Host.absf main_arg1
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_arg9 main_arg10 main_arg11 main_arg12 main_v13 main_v16
-- ==== Kernel.lean ====
abbrev S1048576x8 : Shape := ⟨2, ![1048576, 8]⟩
abbrev S128x1 : Shape := ⟨2, ![128, 1]⟩
abbrev S128 : Shape := ⟨1, ![128]⟩
abbrev S128x1024 : Shape := ⟨2, ![128, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S8x8 : Shape := ⟨2, ![8, 8]⟩
abbrev S_ : Shape := ⟨0, ![]⟩
abbrev S8x1x8x1 : Shape := ⟨4, ![8, 1, 8, 1]⟩
abbrev S1x128x1x1 : Shape := ⟨4, ![1, 128, 1, 1]⟩
abbrev S8x128x8x1 : Shape := ⟨4, ![8, 128, 8, 1]⟩
abbrev S1024x8 : Shape := ⟨2, ![1024, 8]⟩
abbrev S8x128x1x1 : Shape := ⟨4, ![8, 128, 1, 1]⟩
abbrev S1024x1 : Shape := ⟨2, ![1024, 1]⟩
abbrev S1024x26 : Shape := ⟨2, ![1024, 26]⟩
abbrev S64x1 : Shape := ⟨2, ![64, 1]⟩
abbrev S32x1 : Shape := ⟨2, ![32, 1]⟩
abbrev S16x1 : Shape := ⟨2, ![16, 1]⟩
abbrev S1x1 : Shape := ⟨2, ![1, 1]⟩
abbrev S256x1x4096 : Shape := ⟨3, ![256, 1, 4096]⟩
abbrev S4096x8 : Shape := ⟨2, ![4096, 8]⟩
abbrev S1x1x4096 : Shape := ⟨3, ![1, 1, 4096]⟩
abbrev S4096x1 : Shape := ⟨2, ![4096, 1]⟩
abbrev S4096x26 : Shape := ⟨2, ![4096, 26]⟩
abbrev S1024x4096 : Shape := ⟨2, ![1024, 4096]⟩
abbrev S128x4096 : Shape := ⟨2, ![128, 4096]⟩
abbrev S64x4096 : Shape := ⟨2, ![64, 4096]⟩
abbrev S32x4096 : Shape := ⟨2, ![32, 4096]⟩
abbrev S16x4096 : Shape := ⟨2, ![16, 4096]⟩
abbrev S1x4096 : Shape := ⟨2, ![1, 4096]⟩
abbrev S1048576 : Shape := ⟨1, ![1048576]⟩
abbrev S1048576x1 : Shape := ⟨2, ![1048576, 1]⟩

abbrev nBuf : Space → Nat
  | .hbm => 51
  | .vmem => 16
  | .smem => 0
  | _ => 0

abbrev bufTy : (tb : Table) → Fin (tcTables nBuf tb) → BufTy
  | .hbm, ⟨0, _⟩ => ⟨S1048576x8, .f32⟩
  | .hbm, ⟨1, _⟩ => ⟨S128x1, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S16x32, .f32⟩
  | .hbm, ⟨10, _⟩ => ⟨S16, .f32⟩
  | .hbm, ⟨11, _⟩ => ⟨S1x16, .f32⟩
  | .hbm, ⟨12, _⟩ => ⟨S1, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x1x8x1, .f32⟩
  | .hbm, ⟨21, _⟩ => ⟨S1x128x1x1, .f32⟩
  | .hbm, ⟨22, _⟩ => ⟨S8x128x8x1, .f32⟩
  | .hbm, ⟨23, _⟩ => ⟨S8x128x8x1, .f32⟩
  | .hbm, ⟨24, _⟩ => ⟨S8x128x8x1, .f32⟩
  | .hbm, ⟨25, _⟩ => ⟨S1024x8, .f32⟩
  | .hbm, ⟨26, _⟩ => ⟨S1024x8, .bf16⟩
  | .hbm, ⟨27, _⟩ => ⟨S1024x8, .f32⟩
  | .hbm, ⟨28, _⟩ => ⟨S1024x8, .f32⟩
  | .hbm, ⟨29, _⟩ => ⟨S1024x8, .bf16⟩
  | .hbm, ⟨30, _⟩ => ⟨S128x1, .f32⟩
  | .hbm, ⟨31, _⟩ => ⟨S1x128x1x1, .f32⟩
  | .hbm, ⟨32, _⟩ => ⟨S8x128x1x1, .f32⟩
  | .hbm, ⟨33, _⟩ => ⟨S1024x1, .f32⟩
  | .hbm, ⟨34, _⟩ => ⟨S1024x1, .bf16⟩
  | .hbm, ⟨35, _⟩ => ⟨S1024x1, .f32⟩
  | .hbm, ⟨36, _⟩ => ⟨S1024x1, .f32⟩
  | .hbm, ⟨37, _⟩ => ⟨S1024x1, .bf16⟩
  | .hbm, ⟨38, _⟩ => ⟨S1024x26, .bf16⟩
  | .hbm, ⟨39, _⟩ => ⟨S128x1024, .bf16⟩
  | .hbm, ⟨40, _⟩ => ⟨S128x1024, .f32⟩
  | .hbm, ⟨41, _⟩ => ⟨S128x1024, .f32⟩
  | .hbm, ⟨42, _⟩ => ⟨S128x1024, .bf16⟩
  | .hbm, ⟨43, _⟩ => ⟨S128x1, .f32⟩
  | .hbm, ⟨44, _⟩ => ⟨S64x1, .f32⟩
  | .hbm, ⟨45, _⟩ => ⟨S32x1, .f32⟩
  | .hbm, ⟨46, _⟩ => ⟨S16x1, .f32⟩
  | .hbm, ⟨47, _⟩ => ⟨S1x1, .f32⟩
  | .hbm, ⟨48, _⟩ => ⟨S256x1x4096, .f32⟩
  | .hbm, ⟨49, _⟩ => ⟨S1048576, .f32⟩
  | .hbm, ⟨50, _⟩ => ⟨S1048576x1, .f32⟩
  | .local _ .vmem, ⟨0, _⟩ => ⟨S4096x8, .f32⟩
  | .local _ .vmem, ⟨1, _⟩ => ⟨S4096x8, .f32⟩
  | .local _ .vmem, ⟨2, _⟩ => ⟨S1024x26, .bf16⟩
  | .local _ .vmem, ⟨3, _⟩ => ⟨S128x1024, .bf16⟩
  | .local _ .vmem, ⟨4, _⟩ => ⟨S128x1024, .bf16⟩
  | .local _ .vmem, ⟨5, _⟩ => ⟨S128x1, .f32⟩
  | .local _ .vmem, ⟨6, _⟩ => ⟨S64x128, .f32⟩
  | .local _ .vmem, ⟨7, _⟩ => ⟨S64x1, .f32⟩
  | .local _ .vmem, ⟨8, _⟩ => ⟨S32x64, .f32⟩
  | .local _ .vmem, ⟨9, _⟩ => ⟨S32x1, .f32⟩
  | .local _ .vmem, ⟨10, _⟩ => ⟨S16x32, .f32⟩
  | .local _ .vmem, ⟨11, _⟩ => ⟨S16x1, .f32⟩
  | .local _ .vmem, ⟨12, _⟩ => ⟨S1x16, .f32⟩
  | .local _ .vmem, ⟨13, _⟩ => ⟨S1x1, .f32⟩
  | .local _ .vmem, ⟨14, _⟩ => ⟨S1x1x4096, .f32⟩
  | .local _ .vmem, ⟨15, _⟩ => ⟨S1x1x4096, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x26 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S128x1_S1x128x1x1_1_3 : S128x1.BroadcastsInDim S1x128x1x1 (![1, 3] : Fin 2 → Fin S1x128x1x1.rank)
  bcast_S8x1x8x1_S8x128x8x1_0_1_2_3 : S8x1x8x1.BroadcastsInDim S8x128x8x1 (![0, 1, 2, 3] : Fin 4 → Fin S8x128x8x1.rank)
  bcast_S1x128x1x1_S8x128x8x1_0_1_2_3 : S1x128x1x1.BroadcastsInDim S8x128x8x1 (![0, 1, 2, 3] : Fin 4 → Fin S8x128x8x1.rank)
  shapeCasts_S8x128x8x1_S1024x8 : S8x128x8x1.ShapeCasts S1024x8
  bitsLt_bf16_f32 : FTy.bits .bf16 < FTy.bits .f32
  shapeCasts_S128_S128x1 : S128.ShapeCasts S128x1
  shapeCasts_S128x1_S1x128x1x1 : S128x1.ShapeCasts S1x128x1x1
  bcast_S1x128x1x1_S8x128x1x1_0_1_2_3 : S1x128x1x1.BroadcastsInDim S8x128x1x1 (![0, 1, 2, 3] : Fin 4 → Fin S8x128x1x1.rank)
  shapeCasts_S8x128x1x1_S1024x1 : S8x128x1x1.ShapeCasts S1024x1
  concatenates_S1024x8_S1024x8_S1024x8_S1024x1_S1024x1_S1024x26_d1 : Shape.Concatenates [S1024x8, S1024x8, S1024x8, S1024x1, S1024x1] S1024x26 1
  shapeCasts_S64_S64x1 : S64.ShapeCasts S64x1
  shapeCasts_S32_S32x1 : S32.ShapeCasts S32x1
  shapeCasts_S16_S16x1 : S16.ShapeCasts S16x1
  shapeCasts_S1_S1x1 : S1.ShapeCasts S1x1
  inb_S4096x8_S4096x8_0_0 : ∀ a, (![0, 0] : Fin 2 → Nat) a + S4096x8.size a ≤ S4096x8.size a
  h_S4096x8 : 0 < S4096x8.numel
  concatenates_S4096x8_S4096x8_S4096x8_S4096x1_S4096x1_S4096x26_d1 : Shape.Concatenates [S4096x8, S4096x8, S4096x8, S4096x1, S4096x1] S4096x26 1
  inb_S1024x26_S1024x26_0_0 : ∀ a, (![0, 0] : Fin 2 → Nat) a + S1024x26.size a ≤ S1024x26.size a
  h_S1024x26 : 0 < S1024x26.numel
  shapeCasts_S1024x26_S1024x26 : S1024x26.ShapeCasts S1024x26
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x4096 : S16x1.Broadcasts S16x4096
  inb_S1x16_S1x16_0_0 : ∀ a, (![0, 0] : Fin 2 → Nat) a + S1x16.size a ≤ S1x16.size a
  h_S1x16 : 0 < S1x16.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S256x1x4096_S1048576 : S256x1x4096.ShapeCasts S1048576
  shapeCasts_S1048576_S1048576x1 : S1048576.ShapeCasts S1048576x1
  dot_S1024x26_S4096x26_S1024x4096_1_1_0_0_n_n_wf : DotDims.WF S1024x26 S4096x26 S1024x4096 [1] [1] [0] [0] [] []
  dot_S128x1024_S1024x4096_S128x4096_1_0_0_1_n_n_wf : DotDims.WF S128x1024 S1024x4096 S128x4096 [1] [0] [0] [1] [] []
  dot_S64x128_S128x4096_S64x4096_1_0_0_1_n_n_wf : DotDims.WF S64x128 S128x4096 S64x4096 [1] [0] [0] [1] [] []
  dot_S32x64_S64x4096_S32x4096_1_0_0_1_n_n_wf : DotDims.WF S32x64 S64x4096 S32x4096 [1] [0] [0] [1] [] []
  dot_S16x32_S32x4096_S16x4096_1_0_0_1_n_n_wf : DotDims.WF S16x32 S32x4096 S16x4096 [1] [0] [0] [1] [] []
  dot_S1x16_S16x4096_S1x4096_1_0_0_1_n_n_wf : DotDims.WF S1x16 S16x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S1048576x8.size a
  hwx0_0 : ∀ i : grid0.Coords, EltTy.bits .f32 = 32 ∨ (Rect.block (s := S1048576x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x26.size a ≤ S1024x26.size a
  hwx0_1 : ∀ i : grid0.Coords, EltTy.bits .bf16 = 32 ∨ (Rect.block (s := S1024x26) S1024x26.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .bf16 = 32 ∨ (Rect.block (s := S128x1024) S128x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .f32 = 32 ∨ (Rect.block (s := S16x32) S16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x4096.size a ≤ S256x1x4096.size a
  hwx0_13 : ∀ i : grid0.Coords, EltTy.bits .f32 = 32 ∨ (Rect.block (s := S256x1x4096) S1x1x4096.size (cc0_transform_13 i) (hinb0_13 i)).WholeWords (EltTy.packing .f32)

variable [Facts₀]

def dot_S1024x26_S4096x26_S1024x4096_1_1_0_0_n_n : DotDims S1024x26 S4096x26 S1024x4096 where
  lhsContracting := [1]
  rhsContracting := [1]
  lhsNonContracting := [0]
  rhsNonContracting := [0]
  lhsBatch := []
  rhsBatch := []
  wf := dot_S1024x26_S4096x26_S1024x4096_1_1_0_0_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf
def dot_S32x64_S64x4096_S32x4096_1_0_0_1_n_n : DotDims S32x64 S64x4096 S32x4096 where
  lhsContracting := [1]
  rhsContracting := [0]
  lhsNonContracting := [0]
  rhsNonContracting := [1]
  lhsBatch := []
  rhsBatch := []
  wf := dot_S32x64_S64x4096_S32x4096_1_0_0_1_n_n_wf
def dot_S16x32_S32x4096_S16x4096_1_0_0_1_n_n : DotDims S16x32 S32x4096 S16x4096 where
  lhsContracting := [1]
  rhsContracting := [0]
  lhsNonContracting := [0]
  rhsNonContracting := [1]
  lhsBatch := []
  rhsBatch := []
  wf := dot_S16x32_S32x4096_S16x4096_1_0_0_1_n_n_wf
def dot_S1x16_S16x4096_S1x4096_1_0_0_1_n_n : DotDims S1x16 S16x4096 S1x4096 where
  lhsContracting := [1]
  rhsContracting := [0]
  lhsNonContracting := [0]
  rhsNonContracting := [1]
  lhsBatch := []
  rhsBatch := []
  wf := dot_S1x16_S16x4096_S1x4096_1_0_0_1_n_n_wf

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x26.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v29) S1x1x4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S128x1 : Shape := ⟨2, ![128, 1]⟩
abbrev S128 : Shape := ⟨1, ![128]⟩
abbrev S128x1024 : Shape := ⟨2, ![128, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S8x8 : Shape := ⟨2, ![8, 8]⟩
abbrev S_ : Shape := ⟨0, ![]⟩
abbrev S8x1x8x1 : Shape := ⟨4, ![8, 1, 8, 1]⟩
abbrev S1x128x1x1 : Shape := ⟨4, ![1, 128, 1, 1]⟩
abbrev S8x128x8x1 : Shape := ⟨4, ![8, 128, 8, 1]⟩
abbrev S1024x8 : Shape := ⟨2, ![1024, 8]⟩
abbrev S8x128x1x1 : Shape := ⟨4, ![8, 128, 1, 1]⟩
abbrev S1024x1 : Shape := ⟨2, ![1024, 1]⟩
abbrev S8x1048576 : Shape := ⟨2, ![8, 1048576]⟩
abbrev S64x1 : Shape := ⟨2, ![64, 1]⟩
abbrev S32x1 : Shape := ⟨2, ![32, 1]⟩
abbrev S16x1 : Shape := ⟨2, ![16, 1]⟩
abbrev S1x1 : Shape := ⟨2, ![1, 1]⟩
abbrev S1x1048576 : Shape := ⟨2, ![1, 1048576]⟩
abbrev S8x4096 : Shape := ⟨2, ![8, 4096]⟩
abbrev S1x4096 : Shape := ⟨2, ![1, 4096]⟩
abbrev S1024x4096 : Shape := ⟨2, ![1024, 4096]⟩
abbrev S128x4096 : Shape := ⟨2, ![128, 4096]⟩
abbrev S64x4096 : Shape := ⟨2, ![64, 4096]⟩
abbrev S32x4096 : Shape := ⟨2, ![32, 4096]⟩
abbrev S16x4096 : Shape := ⟨2, ![16, 4096]⟩
abbrev S1048576 : Shape := ⟨1, ![1048576]⟩
abbrev S1048576x1 : Shape := ⟨2, ![1048576, 1]⟩

abbrev nBuf : Space → Nat
  | .hbm => 39
  | .vmem => 16
  | .smem => 0
  | _ => 0

abbrev bufTy : (tb : Table) → Fin (tcTables nBuf tb) → BufTy
  | .hbm, ⟨0, _⟩ => ⟨S1048576x8, .f32⟩
  | .hbm, ⟨1, _⟩ => ⟨S128x1, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S16x32, .f32⟩
  | .hbm, ⟨10, _⟩ => ⟨S16, .f32⟩
  | .hbm, ⟨11, _⟩ => ⟨S1x16, .f32⟩
  | .hbm, ⟨12, _⟩ => ⟨S1, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x1x8x1, .f32⟩
  | .hbm, ⟨21, _⟩ => ⟨S1x128x1x1, .f32⟩
  | .hbm, ⟨22, _⟩ => ⟨S8x128x8x1, .f32⟩
  | .hbm, ⟨23, _⟩ => ⟨S8x128x8x1, .f32⟩
  | .hbm, ⟨24, _⟩ => ⟨S8x128x8x1, .f32⟩
  | .hbm, ⟨25, _⟩ => ⟨S1024x8, .f32⟩
  | .hbm, ⟨26, _⟩ => ⟨S128x1, .f32⟩
  | .hbm, ⟨27, _⟩ => ⟨S1x128x1x1, .f32⟩
  | .hbm, ⟨28, _⟩ => ⟨S8x128x1x1, .f32⟩
  | .hbm, ⟨29, _⟩ => ⟨S1024x1, .f32⟩
  | .hbm, ⟨30, _⟩ => ⟨S8x1048576, .f32⟩
  | .hbm, ⟨31, _⟩ => ⟨S128x1, .f32⟩
  | .hbm, ⟨32, _⟩ => ⟨S64x1, .f32⟩
  | .hbm, ⟨33, _⟩ => ⟨S32x1, .f32⟩
  | .hbm, ⟨34, _⟩ => ⟨S16x1, .f32⟩
  | .hbm, ⟨35, _⟩ => ⟨S1x1, .f32⟩
  | .hbm, ⟨36, _⟩ => ⟨S1x1048576, .f32⟩
  | .hbm, ⟨37, _⟩ => ⟨S1048576, .f32⟩
  | .hbm, ⟨38, _⟩ => ⟨S1048576x1, .f32⟩
  | .local _ .vmem, ⟨0, _⟩ => ⟨S8x4096, .f32⟩
  | .local _ .vmem, ⟨1, _⟩ => ⟨S8x4096, .f32⟩
  | .local _ .vmem, ⟨2, _⟩ => ⟨S1024x8, .f32⟩
  | .local _ .vmem, ⟨3, _⟩ => ⟨S1024x1, .f32⟩
  | .local _ .vmem, ⟨4, _⟩ => ⟨S128x1024, .f32⟩
  | .local _ .vmem, ⟨5, _⟩ => ⟨S128x1, .f32⟩
  | .local _ .vmem, ⟨6, _⟩ => ⟨S64x128, .f32⟩
  | .local _ .vmem, ⟨7, _⟩ => ⟨S64x1, .f32⟩
  | .local _ .vmem, ⟨8, _⟩ => ⟨S32x64, .f32⟩
  | .local _ .vmem, ⟨9, _⟩ => ⟨S32x1, .f32⟩
  | .local _ .vmem, ⟨10, _⟩ => ⟨S16x32, .f32⟩
  | .local _ .vmem, ⟨11, _⟩ => ⟨S16x1, .f32⟩
  | .local _ .vmem, ⟨12, _⟩ => ⟨S1x16, .f32⟩
  | .local _ .vmem, ⟨13, _⟩ => ⟨S1x1, .f32⟩
  | .local _ .vmem, ⟨14, _⟩ => ⟨S1x4096, .f32⟩
  | .local _ .vmem, ⟨15, _⟩ => ⟨S1x4096, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S128x1_S1x128x1x1_1_3 : S128x1.BroadcastsInDim S1x128x1x1 (![1, 3] : Fin 2 → Fin S1x128x1x1.rank)
  bcast_S8x1x8x1_S8x128x8x1_0_1_2_3 : S8x1x8x1.BroadcastsInDim S8x128x8x1 (![0, 1, 2, 3] : Fin 4 → Fin S8x128x8x1.rank)
  bcast_S1x128x1x1_S8x128x8x1_0_1_2_3 : S1x128x1x1.BroadcastsInDim S8x128x8x1 (![0, 1, 2, 3] : Fin 4 → Fin S8x128x8x1.rank)
  shapeCasts_S8x128x8x1_S1024x8 : S8x128x8x1.ShapeCasts S1024x8
  shapeCasts_S128_S128x1 : S128.ShapeCasts S128x1
  shapeCasts_S128x1_S1x128x1x1 : S128x1.ShapeCasts S1x128x1x1
  bcast_S1x128x1x1_S8x128x1x1_0_1_2_3 : S1x128x1x1.BroadcastsInDim S8x128x1x1 (![0, 1, 2, 3] : Fin 4 → Fin S8x128x1x1.rank)
  shapeCasts_S8x128x1x1_S1024x1 : S8x128x1x1.ShapeCasts S1024x1
  transposes_S1048576x8_S8x1048576_1_0 : S1048576x8.Transposes [1, 0] S8x1048576
  shapeCasts_S64_S64x1 : S64.ShapeCasts S64x1
  shapeCasts_S32_S32x1 : S32.ShapeCasts S32x1
  shapeCasts_S16_S16x1 : S16.ShapeCasts S16x1
  shapeCasts_S1_S1x1 : S1.ShapeCasts S1x1
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x4096 : S1024x1.Broadcasts S1024x4096
  inb_S128x1024_S128x1024_0_0 : ∀ a, (![0, 0] : Fin 2 → Nat) a + S128x1024.size a ≤ S128x1024.size a
  h_S128x1024 : 0 < S128x1024.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x4096 : S16x1.Broadcasts S16x4096
  inb_S1x16_S1x16_0_0 : ∀ a, (![0, 0] : Fin 2 → Nat) a + S1x16.size a ≤ S1x16.size a
  h_S1x16 : 0 < S1x16.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  inb_S1x4096_S1x4096_0_0 : ∀ a, (![0, 0] : Fin 2 → Nat) a + S1x4096.size a ≤ S1x4096.size a
  h_S1x4096 : 0 < S1x4096.numel
  shapeCasts_S1x1048576_S1048576 : S1x1048576.ShapeCasts S1048576
  shapeCasts_S1048576_S1048576x1 : S1048576.ShapeCasts S1048576x1
  dot_S1024x8_S8x4096_S1024x4096_1_0_0_1_n_n_wf : DotDims.WF S1024x8 S8x4096 S1024x4096 [1] [0] [0] [1] [] []
  dot_S128x1024_S1024x4096_S128x4096_1_0_0_1_n_n_wf : DotDims.WF S128x1024 S1024x4096 S128x4096 [1] [0] [0] [1] [] []
  dot_S64x128_S128x4096_S64x4096_1_0_0_1_n_n_wf : DotDims.WF S64x128 S128x4096 S64x4096 [1] [0] [0] [1] [] []
  dot_S32x64_S64x4096_S32x4096_1_0_0_1_n_n_wf : DotDims.WF S32x64 S64x4096 S32x4096 [1] [0] [0] [1] [] []
  dot_S16x32_S32x4096_S16x4096_1_0_0_1_n_n_wf : DotDims.WF S16x32 S32x4096 S16x4096 [1] [0] [0] [1] [] []
  dot_S1x16_S16x4096_S1x4096_1_0_0_1_n_n_wf : DotDims.WF S1x16 S16x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x1048576.size a
  hwx0_0 : ∀ i : grid0.Coords, EltTy.bits .f32 = 32 ∨ (Rect.block (s := S8x1048576) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S1024x8.size a
  hwx0_1 : ∀ i : grid0.Coords, EltTy.bits .f32 = 32 ∨ (Rect.block (s := S1024x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .f32 = 32 ∨ (Rect.block (s := S16x32) S16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x4096.size a ≤ S1x1048576.size a
  hwx0_13 : ∀ i : grid0.Coords, EltTy.bits .f32 = 32 ∨ (Rect.block (s := S1x1048576) S1x4096.size (cc0_transform_13 i) (hinb0_13 i)).WholeWords (EltTy.packing .f32)

variable [Facts₀]

def dot_S1024x8_S8x4096_S1024x4096_1_0_0_1_n_n : DotDims S1024x8 S8x4096 S1024x4096 where
  lhsContracting := [1]
  rhsContracting := [0]
  lhsNonContracting := [0]
  rhsNonContracting := [1]
  lhsBatch := []
  rhsBatch := []
  wf := dot_S1024x8_S8x4096_S1024x4096_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf
def dot_S32x64_S64x4096_S32x4096_1_0_0_1_n_n : DotDims S32x64 S64x4096 S32x4096 where
  lhsContracting := [1]
  rhsContracting := [0]
  lhsNonContracting := [0]
  rhsNonContracting := [1]
  lhsBatch := []
  rhsBatch := []
  wf := dot_S32x64_S64x4096_S32x4096_1_0_0_1_n_n_wf
def dot_S16x32_S32x4096_S16x4096_1_0_0_1_n_n : DotDims S16x32 S32x4096 S16x4096 where
  lhsContracting := [1]
  rhsContracting := [0]
  lhsNonContracting := [0]
  rhsNonContracting := [1]
  lhsBatch := []
  rhsBatch := []
  wf := dot_S16x32_S32x4096_S16x4096_1_0_0_1_n_n_wf
def dot_S1x16_S16x4096_S1x4096_1_0_0_1_n_n : DotDims S1x16 S16x4096 S1x4096 where
  lhsContracting := [1]
  rhsContracting := [0]
  lhsNonContracting := [0]
  rhsNonContracting := [1]
  lhsBatch := []
  rhsBatch := []
  wf := dot_S1x16_S16x4096_S1x4096_1_0_0_1_n_n_wf

abbrev win0_0 : Pipeline.Window sig grid0 :=
  Pipeline.Window.ofSpec (Memref.whole main_v11) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== Proof.KernelIdealFrame.lean ====
/-
  The frame of the kernel program, at any float instance: under any launch memory every weakly fair execution of
  @main on the TensorCores terminates without a fault and leaves the thirteen argument arrays as launched.

  @main is three stretches of host operations (the 8x8 identity; its Kronecker product with the first layer's
  weight column; the bf16 splits of that product, of the tiled bias and of the second layer's weight, one
  concatenation of five column groups into a [1024, 26] operand, and the biases reshaped to columns), one
  pipelined region over a grid of 256 points, and two reshapes of the region's result. None of the host
  operations writes an argument array or an array the region stages, so every argument is found by the region
  as launched and ends as launched.

  At a grid point the body loads each of its thirteen input windows whole, computes, and stores the result
  through the one rectangle that is the whole [1, 1, 4096] output block; it also loads that block once before
  storing into it, a value it never uses. So the output block after the body is one function of the input
  blocks (`out0_13`), each input block is left in place, and nothing else of the core's state is touched: the
  proof data below says exactly that, the body's triple is run symbolically, and the library's run of a region
  followed by host operations gives the post from which the frame is read off.
-/
import proofs.«120824_g2000504593560428_pallasbulk_1050_9_alg».proof.Proof.Gen.KernelIdeal.Launch
import proofs.«120824_g2000504593560428_pallasbulk_1050_9_alg».proof.Proof.Gen.KernelIdeal.Skeleton
import proofs.«120824_g2000504593560428_pallasbulk_1050_9_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the three host stretches. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The reshapes after the region touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Neither reshape after the region writes argument 1, and the region stages no window from it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Neither reshape after the region writes argument 2, and the region stages no window from it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Neither reshape after the region writes argument 3, and the region stages no window from it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Neither reshape after the region writes argument 4, and the region stages no window from it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Neither reshape after the region writes argument 6, and the region stages no window from it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Neither reshape after the region writes argument 8, and the region stages no window from it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- Neither reshape after the region writes argument 10, and the region stages no window from it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- Neither reshape after the region writes argument 12, and the region stages no window from it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not: where it is not fetched
    the block index has not moved since the last fetch, and the body leaves the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not: where it is not fetched
    the block index has not moved since the last fetch, and the body leaves the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not: where it is not fetched
    the block index has not moved since the last fetch, and the body leaves the buffer as it found it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not: where it is not fetched
    the block index has not moved since the last fetch, and the body leaves the buffer as it found it. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not: where it is not fetched
    the block index has not moved since the last fetch, and the body leaves the buffer as it found it. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not: where it is not fetched
    the block index has not moved since the last fetch, and the body leaves the buffer as it found it. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not: where it is not fetched
    the block index has not moved since the last fetch, and the body leaves the buffer as it found it. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not: where it is not fetched
    the block index has not moved since the last fetch, and the body leaves the buffer as it found it. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not: where it is not fetched
    the block index has not moved since the last fetch, and the body leaves the buffer as it found it. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not: where it is not fetched
    the block index has not moved since the last fetch, and the body leaves the buffer as it found it. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not: where it is not fetched
    the block index has not moved since the last fetch, and the body leaves the buffer as it found it. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not: where it is not fetched
    the block index has not moved since the last fetch, and the body leaves the buffer as it found it. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or not: where it is not fetched
    the block index has not moved since the last fetch, and the body leaves the buffer as it found it. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In any state satisfying the library's frame post, for any proof data whose arrays are the region-entry contents, the
    argument arrays hold their launch contents: an argument the region stages a window from is an input array, which the
    run leaves at its entry contents; any other argument is a buffer outside the pipeline, left as the reshapes after
    the region leave it; and either way that is the launch contents. -/
theorem frame_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    ((h c).1 5).trans (((dats 0 c).arrAt_in 5 rfl _).trans ((hA c 5).trans (V_main_arg5 m c))),
    (((h c).2 main_arg6 (Pipeline.mem_restRefs_of main_arg6 (by decide) (by decide))).trans (W_main_arg6 m dats c)),
    ((h c).1 7).trans (((dats 0 c).arrAt_in 7 rfl _).trans ((hA c 7).trans (V_main_arg7 m c))),
    (((h c).2 main_arg8 (Pipeline.mem_restRefs_of main_arg8 (by decide) (by decide))).trans (W_main_arg8 m dats c)),
    ((h c).1 9).trans (((dats 0 c).arrAt_in 9 rfl _).trans ((hA c 9).trans (V_main_arg9 m c))),
    (((h c).2 main_arg10 (Pipeline.mem_restRefs_of main_arg10 (by decide) (by decide))).trans (W_main_arg10 m dats c)),
    ((h c).1 11).trans (((dats 0 c).arrAt_in 11 rfl _).trans ((hA c 11).trans (V_main_arg11 m c))),
    (((h c).2 main_arg12 (Pipeline.mem_restRefs_of main_arg12 (by decide) (by decide))).trans (W_main_arg12 m dats c))⟩

/-- So a run to the frame post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => frame_post m dats hA r h c) h

/-! ## The body's accesses -/

abbrev r0_0 : Rect S4096x8 := Rect.unit (s := S4096x8) ![0, 0] S4096x8.size inb_S4096x8_S4096x8_0_0
abbrev r0_1 : Rect S1024x26 := Rect.unit (s := S1024x26) ![0, 0] S1024x26.size inb_S1024x26_S1024x26_0_0
abbrev r0_2 : Rect S128x1024 := Rect.unit (s := S128x1024) ![0, 0] S128x1024.size inb_S128x1024_S128x1024_0_0
abbrev r0_3 : Rect S128x1024 := Rect.unit (s := S128x1024) ![0, 0] S128x1024.size inb_S128x1024_S128x1024_0_0
abbrev r0_4 : Rect S128x1 := Rect.unit (s := S128x1) ![0, 0] S128x1.size inb_S128x1_S128x1_0_0
abbrev r0_5 : Rect S64x128 := Rect.unit (s := S64x128) ![0, 0] S64x128.size inb_S64x128_S64x128_0_0
abbrev r0_6 : Rect S64x1 := Rect.unit (s := S64x1) ![0, 0] S64x1.size inb_S64x1_S64x1_0_0
abbrev r0_7 : Rect S32x64 := Rect.unit (s := S32x64) ![0, 0] S32x64.size inb_S32x64_S32x64_0_0
abbrev r0_8 : Rect S32x1 := Rect.unit (s := S32x1) ![0, 0] S32x1.size inb_S32x1_S32x1_0_0
abbrev r0_9 : Rect S16x32 := Rect.unit (s := S16x32) ![0, 0] S16x32.size inb_S16x32_S16x32_0_0
abbrev r0_10 : Rect S16x1 := Rect.unit (s := S16x1) ![0, 0] S16x1.size inb_S16x1_S16x1_0_0
abbrev r0_11 : Rect S1x16 := Rect.unit (s := S1x16) ![0, 0] S1x16.size inb_S1x16_S1x16_0_0
abbrev r0_12 : Rect S1x1 := Rect.unit (s := S1x1) ![0, 0] S1x1.size inb_S1x1_S1x1_0_0
abbrev r0_13 : Rect S1x1x4096 := Rect.unit (s := S1x1x4096) ![0, 0, 0] S1x1x4096.size inb_S1x1x4096_S1x1x4096_0_0_0

/-! ## What the body leaves in the output window's buffer -/

/-- The output block after the body, from the input windows' blocks: its one store, of the network's value on the
    loaded blocks. -/
def out0_13 (x0 : Vec F S4096x8 .f32) (x1 : Vec F S1024x26 .bf16) (x2 : Vec F S128x1024 .bf16) (x3 : Vec F S128x1024 .bf16) (x4 : Vec F S128x1 .f32) (x5 : Vec F S64x128 .f32) (x6 : Vec F S64x1 .f32) (x7 : Vec F S32x64 .f32) (x8 : Vec F S32x1 .f32) (x9 : Vec F S16x32 .f32) (x10 : Vec F S16x1 .f32) (x11 : Vec F S1x16 .f32) (x12 : Vec F S1x1 .f32) : Vec F S1x1x4096 .f32 :=
  View.canon [⟨r0_13, k0_pay1 (k0_pay2 (View.ld x0 r0_0) (View.ld x1 r0_1) (View.ld x2 r0_2) (View.ld x3 r0_3) (View.ld x4 r0_4) (View.ld x5 r0_5) (View.ld x6 r0_6)) (View.ld x7 r0_7) (View.ld x8 r0_8) (View.ld x9 r0_9) (View.ld x10 r0_10) (View.ld x11 r0_11) (View.ld x12 r0_12)⟩]

/-- That store's rectangle is the whole block. -/
theorem cover0_13 (p0 : Vec F S1x1x4096 .f32) (y : S1x1x4096.Idx) :
    ∃ pc ∈ ([⟨r0_13, p0⟩] : List (View.Piece (Elt F) S1x1x4096 .f32)), y ∈ pc.1.set :=
  View.cover_of_tiled [⟨r0_13, p0⟩] S1x1x4096.size (by rfl) y

/-! ## The body's triple -/

set_option maxHeartbeats 1000000 in
/-- The body on whole staging memrefs, the inputs' at contents `xW` and the output's at anything, runs to the continuation
    holding the inputs' as they were and the output's at `out0_13` of the inputs'. -/
theorem sound_kernel (c : Dev nD) (E : Set ℕ) (i : grid0.Coords) (arg1 : Memref sig .tc .vmem S4096x8 .f32) (harg1 : arg1.IsWhole) (arg2 : Memref sig .tc .vmem S1024x26 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1 .f32) (harg5 : arg5.IsWhole) (arg6 : Memref sig .tc .vmem S64x128 .f32) (harg6 : arg6.IsWhole) (arg7 : Memref sig .tc .vmem S64x1 .f32) (harg7 : arg7.IsWhole) (arg8 : Memref sig .tc .vmem S32x64 .f32) (harg8 : arg8.IsWhole) (arg9 : Memref sig .tc .vmem S32x1 .f32) (harg9 : arg9.IsWhole) (arg10 : Memref sig .tc .vmem S16x32 .f32) (harg10 : arg10.IsWhole) (arg11 : Memref sig .tc .vmem S16x1 .f32) (harg11 : arg11.IsWhole) (arg12 : Memref sig .tc .vmem S1x16 .f32) (harg12 : arg12.IsWhole) (arg13 : Memref sig .tc .vmem S1x1 .f32) (harg13 : arg13.IsWhole) (arg14 : Memref sig .tc .vmem S1x1x4096 .f32) (harg14 : arg14.IsWhole)
    (x0 : Vec F S4096x8 .f32) (x1 : Vec F S1024x26 .bf16) (x2 : Vec F S128x1024 .bf16) (x3 : Vec F S128x1024 .bf16) (x4 : Vec F S128x1 .f32) (x5 : Vec F S64x128 .f32) (x6 : Vec F S64x1 .f32) (x7 : Vec F S32x64 .f32) (x8 : Vec F S32x1 .f32) (x9 : Vec F S16x32 .f32) (x10 : Vec F S16x1 .f32) (x11 : Vec F S1x16 .f32) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover0_13 _)

/-! ## The pipeline's proof data -/

/-- The proof data of the one pipeline on core `c`: the arrays as the region finds them; after the body at point `t` each
    input's buffer at its block and the output's at `out0_13` of the input blocks; the invariant is the rest of the core's
    scoped state, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks, so the triple applies; the invariant and the core's
    duty pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the write-backs of the proof data leave in it and every other
    unscoped buffer as the reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.Net.lean ====
/-
  The network both programs compute on one batch row, as plain sums over finite index types on the extended reals.

  A dense layer takes a column h of length k to the column  p ↦ (∑ κ < k, W p κ · h κ) + b p  of length n; the
  rectifier takes a column to its pointwise maximum with zero. The network is five rectified dense layers of widths
  8 → 1024 → 128 → 64 → 32 → 16 followed by one dense layer to width 1; its value is that last column's one entry.
  The first layer's weight is the Kronecker product of the 8×8 identity with a [128, 1] column and its bias that
  column's bias tiled eight times; here both are just operands W1 and B1, since both programs build them by the same
  host operations.

  `result` is the whole [1048576, 1] result array: row i is the network's value on row i of the batch.
-/
import Idealize.ShloMosaic.Lib.ValueIdx
import Idealize.ShloMosaic.PureOps.Ideal

noncomputable section

namespace Cert.Net

open Idealize.ShloMosaic Idealize.ShloMosaic.ValueIdx

/-- One dense layer with bias, on a column. -/
def layer {n k : ℕ} (W : Fin n → Fin k → EReal) (b : Fin n → EReal) (h : Fin k → EReal) : Fin n → EReal :=
  fun p => (∑ κ : Fin k, W p κ * h κ) + b p

/-- The rectifier, on a column. -/
def relu {n : ℕ} (h : Fin n → EReal) : Fin n → EReal := fun p => max (h p) 0

/-- The network's value on one batch row `x`. -/
def net (W1 : Fin 1024 → Fin 8 → EReal) (B1 : Fin 1024 → EReal) (W2 : Fin 128 → Fin 1024 → EReal) (B2 : Fin 128 → EReal)
    (W25 : Fin 64 → Fin 128 → EReal) (B25 : Fin 64 → EReal) (W3 : Fin 32 → Fin 64 → EReal) (B3 : Fin 32 → EReal)
    (W4 : Fin 16 → Fin 32 → EReal) (B4 : Fin 16 → EReal) (W5 : Fin 1 → Fin 16 → EReal) (B5 : Fin 1 → EReal)
    (x : Fin 8 → EReal) : EReal :=
  layer W5 B5 (relu (layer W4 B4 (relu (layer W3 B3 (relu (layer W25 B25 (relu (layer W2 B2 (relu (layer W1 B1 x)))))))))) 0

/-- A rank-2 array as a matrix of its entries. -/
abbrev mat {n k : ℕ} (A : (⟨2, ![n, k]⟩ : Shape).Idx → EReal) : Fin n → Fin k → EReal := fun p κ => A (ix2 p κ)
/-- A one-column array as the column of its entries. -/
abbrev col {n : ℕ} (A : (⟨2, ![n, 1]⟩ : Shape).Idx → EReal) : Fin n → EReal := fun p => A (ix2 p 0)

/-- The network's value from its operands as arrays: the weights as matrices, the biases as one-column arrays. -/
def netA (W1 : (⟨2, ![1024, 8]⟩ : Shape).Idx → EReal) (B1 : (⟨2, ![1024, 1]⟩ : Shape).Idx → EReal)
    (W2 : (⟨2, ![128, 1024]⟩ : Shape).Idx → EReal) (B2 : (⟨2, ![128, 1]⟩ : Shape).Idx → EReal)
    (W25 : (⟨2, ![64, 128]⟩ : Shape).Idx → EReal) (B25 : (⟨2, ![64, 1]⟩ : Shape).Idx → EReal)
    (W3 : (⟨2, ![32, 64]⟩ : Shape).Idx → EReal) (B3 : (⟨2, ![32, 1]⟩ : Shape).Idx → EReal)
    (W4 : (⟨2, ![16, 32]⟩ : Shape).Idx → EReal) (B4 : (⟨2, ![16, 1]⟩ : Shape).Idx → EReal)
    (W5 : (⟨2, ![1, 16]⟩ : Shape).Idx → EReal) (B5 : (⟨2, ![1, 1]⟩ : Shape).Idx → EReal)
    (x : Fin 8 → EReal) : EReal :=
  net (mat W1) (col B1) (mat W2) (col B2) (mat W25) (col B25) (mat W3) (col B3) (mat W4) (col B4) (mat W5) (col B5) x

/-- The result array: row `i` is the network's value on row `i` of the batch `X`. -/
def result (W1 : (⟨2, ![1024, 8]⟩ : Shape).Idx → EReal) (B1 : (⟨2, ![1024, 1]⟩ : Shape).Idx → EReal)
    (W2 : (⟨2, ![128, 1024]⟩ : Shape).Idx → EReal) (B2 : (⟨2, ![128, 1]⟩ : Shape).Idx → EReal)
    (W25 : (⟨2, ![64, 128]⟩ : Shape).Idx → EReal) (B25 : (⟨2, ![64, 1]⟩ : Shape).Idx → EReal)
    (W3 : (⟨2, ![32, 64]⟩ : Shape).Idx → EReal) (B3 : (⟨2, ![32, 1]⟩ : Shape).Idx → EReal)
    (W4 : (⟨2, ![16, 32]⟩ : Shape).Idx → EReal) (B4 : (⟨2, ![16, 1]⟩ : Shape).Idx → EReal)
    (W5 : (⟨2, ![1, 16]⟩ : Shape).Idx → EReal) (B5 : (⟨2, ![1, 1]⟩ : Shape).Idx → EReal)
    (X : (⟨2, ![1048576, 8]⟩ : Shape).Idx → EReal) : (⟨2, ![1048576, 1]⟩ : Shape).Idx → EReal :=
  fun i => netA W1 B1 W2 B2 W25 B25 W3 B3 W4 B4 W5 B5 (fun κ => X (ix2 (i 0) κ))

/-- The [1024, 26] operand of the kernel's first product, row `p`: the weight row twice, eight zeros, the bias, a zero. -/
def augW {n : ℕ} (W : Fin n → Fin 8 → EReal) (B : Fin n → EReal) (p : Fin n) (l : Fin 26) : EReal :=
  if h : l.val < 8 then W p ⟨l.val, h⟩
  else if h : l.val < 16 then W p ⟨l.val - 8, by omega⟩
  else if l.val < 24 then 0
  else if l.val = 24 then B p
  else 0

/-- The [4096, 26] operand of the kernel's first product, one row: the batch row, eight zeros, the batch row again, two ones. -/
def augX (x : Fin 8 → EReal) (l : Fin 26) : EReal :=
  if h : l.val < 8 then x ⟨l.val, h⟩
  else if l.val < 16 then 0
  else if h : l.val < 24 then x ⟨l.val - 16, by omega⟩
  else 1

end Cert.Net

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelPayload.lean ====
/-
  The kernel's payload at one output lane: the network on the batch row that lane holds.

  The body's input blocks are the batch block x [4096, 8] (row q is batch row q of the block), the augmented first
  operand [1024, 26], the two halves of the second layer's weight, and the later layers' weights and bias columns.
  A change of float format is the identity on the extended reals, so x minus its rounded copy is x - x, which is 0
  for finite x; the body's own [4096, 26] operand is then the row (x, 0, x, 1, 1) and, against a row
  (W, W, 0, B, 0) of the augmented operand, the product contracting both operands' second axis is
  (∑ κ < 8, W κ · x κ) + B: the first layer with its bias. The second layer is the sum of two products, with the
  weight and with an all-zero operand, which is the product with the weight. The remaining layers are plain.
-/
import proofs.«120824_g2000504593560428_pallasbulk_1050_9_alg».proof.Proof.Gen.KernelIdeal.Skeleton
import proofs.«120824_g2000504593560428_pallasbulk_1050_9_alg».proof.Proof.Net
import proofs.«120824_g2000504593560428_pallasbulk_1050_9_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KerPay

open Cert.KernelIdeal Cert.KernelIdeal.Gen
open Idealize.ShloMosaic Idealize.ShloMosaic.ValueIdx

/-! ## A product contracting the second axis of both operands -/

section TransposedRight

variable {a k b : ℕ} (d : DotDims ⟨2, ![a, k]⟩ ⟨2, ![b, k]⟩ ⟨2, ![a, b]⟩)

/-- The dimension numbers of a product [a, k] · [b, k]ᵀ → [a, b]: no batch axis, the rows of the result from the left
    operand's first axis, its columns from the right operand's first axis, the second axis of both contracted. -/
structure PlainT : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The left operand's row is the result's row. -/
theorem lhsT_row (h : PlainT d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's row is the result's column. -/
theorem rhsT_row (h : PlainT d) (j : (⟨2, ![a, b]⟩ : Shape).Idx) (q : d.contr.Idx) : (d.rhsIdx j q 0).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k: both operands are read at the contraction
    position on their second axis. -/
theorem sumT_contr (h : PlainT d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 q κ) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhsT_row h _ _
    | ⟨1, _⟩ => exact (d.lhsIdx_val_of_single h.lhsContr _ _).trans hk)
  have er : d.rhsIdx (ix2 p q) ((contrEquiv1 d k hr hs).symm κ) = ix2 q κ := funext fun x => Fin.ext (by
    match x with
    | ⟨0, _⟩ => exact rhsT_row h _ _
    | ⟨1, _⟩ => exact (d.rhsIdx_val_of_single h.rhsContr _ _).trans hk)
  rw [el, er]

/-- The kernel's product into a zero accumulator, contracting the second axis of both operands, at an entry:
    entry (p, q) is ∑ κ < k, l (p, κ) · r (q, κ). -/
theorem matmulT_zero_apply {φ₁ φ₂ : FTy} (h : PlainT d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) :=
  (Ideal.matmul_constant_zero_apply d prec l r (ix2 p q)).trans (sumT_contr h hr hs l r p q)

end TransposedRight

/-! ## A column broadcast along the lanes -/

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The constants -/

/-- The bf16 word 0x3F80 is 1. -/
theorem ofBits_one_bf16 : Ideal.ofBits .bf16 0x3F80#16 = 1 := by
  simp [Ideal.ofBits, Ideal.ieee, -EReal.coe_mul]
  norm_num

/-- The bf16 zero word is 0. -/
theorem ofBits_zero_bf16 : Ideal.ofBits .bf16 0x0000#16 = 0 := by simp [Ideal.ofBits, Ideal.ieee]

/-- A finite value minus itself is 0. -/
theorem sub_self_of_finite (x : EReal) (h : ∃ r : ℝ, x = (r : EReal)) : x - x = 0 := by
  obtain ⟨r, rfl⟩ := h
  rw [← EReal.coe_sub, sub_self, EReal.coe_zero]

/-! ## The augmented product is the first layer -/

/-- A sum over 26 positions, split as 8 + 8 + 8 + 2. -/
theorem sum_split26 (f : Fin (8 + (8 + (8 + 2))) → EReal) :
    ∑ l, f l = ∑ κ : Fin 8, f (Fin.castAdd (8 + (8 + 2)) κ)
      + (∑ κ : Fin 8, f (Fin.natAdd 8 (Fin.castAdd (8 + 2) κ))
        + (∑ κ : Fin 8, f (Fin.natAdd 8 (Fin.natAdd 8 (Fin.castAdd 2 κ)))
          + ∑ κ : Fin 2, f (Fin.natAdd 8 (Fin.natAdd 8 (Fin.natAdd 8 κ))))) := by
  rw [Fin.sum_univ_add, Fin.sum_univ_add, Fin.sum_univ_add]

/-- Below position 8 the augmented weight row is the weight row. -/
theorem augW_lo {n : ℕ} (W : Fin n → Fin 8 → EReal) (B : Fin n → EReal) (p : Fin n) (l : Fin 26) (h : l.val < 8) :
    Cert.Net.augW W B p l = W p ⟨l.val, h⟩ := by
  unfold Cert.Net.augW; rw [dif_pos h]

/-- Positions 16 to 23 of the augmented weight row are zero. -/
theorem augW_zero {n : ℕ} (W : Fin n → Fin 8 → EReal) (B : Fin n → EReal) (p : Fin n) (l : Fin 26) (h1 : 16 ≤ l.val)
    (h2 : l.val < 24) : Cert.Net.augW W B p l = 0 := by
  unfold Cert.Net.augW; rw [dif_neg (by omega), dif_neg (by omega), if_pos h2]

/-- Position 24 of the augmented weight row is the bias. -/
theorem augW_bias {n : ℕ} (W : Fin n → Fin 8 → EReal) (B : Fin n → EReal) (p : Fin n) (l : Fin 26) (h : l.val = 24) :
    Cert.Net.augW W B p l = B p := by
  unfold Cert.Net.augW; rw [dif_neg (by omega), dif_neg (by omega), if_neg (by omega), if_pos h]

/-- Position 25 of the augmented weight row is zero. -/
theorem augW_last {n : ℕ} (W : Fin n → Fin 8 → EReal) (B : Fin n → EReal) (p : Fin n) (l : Fin 26) (h : l.val = 25) :
    Cert.Net.augW W B p l = 0 := by
  unfold Cert.Net.augW; rw [dif_neg (by omega), dif_neg (by omega), if_neg (by omega), if_neg (by omega)]

/-- Below position 8 the augmented batch row is the batch row. -/
theorem augX_lo (x : Fin 8 → EReal) (l : Fin 26) (h : l.val < 8) : Cert.Net.augX x l = x ⟨l.val, h⟩ := by
  unfold Cert.Net.augX; rw [dif_pos h]

/-- Positions 8 to 15 of the augmented batch row are zero. -/
theorem augX_zero (x : Fin 8 → EReal) (l : Fin 26) (h1 : 8 ≤ l.val) (h2 : l.val < 16) : Cert.Net.augX x l = 0 := by
  unfold Cert.Net.augX; rw [dif_neg (by omega), if_pos h2]

/-- Positions 16 to 23 of the augmented batch row are the batch row again. -/
theorem augX_hi (x : Fin 8 → EReal) (l : Fin 26) (h1 : 16 ≤ l.val) (h2 : l.val < 24) :
    Cert.Net.augX x l = x ⟨l.val - 16, by omega⟩ := by
  unfold Cert.Net.augX; rw [dif_neg (by omega), if_neg (by omega), dif_pos h2]

/-- The last two positions of the augmented batch row are one. -/
theorem augX_one (x : Fin 8 → EReal) (l : Fin 26) (h : 24 ≤ l.val) : Cert.Net.augX x l = 1 := by
  unfold Cert.Net.augX; rw [dif_neg (by omega), if_neg (by omega), dif_neg (by omega)]

/-- The augmented row (W, W, 0, B, 0) against the augmented batch row (x, 0, x, 1, 1) is the first layer with its bias:
    ∑ l < 26, augW l · augX l = (∑ κ < 8, W κ · x κ) + B. On the extended reals 0 · a = 0 = a · 0 and a · 1 = a, so no
    finiteness is needed. -/
theorem aug_sum {n : ℕ} (W : Fin n → Fin 8 → EReal) (B : Fin n → EReal) (x : Fin 8 → EReal) (p : Fin n) :
    ∑ l : Fin 26, Cert.Net.augW W B p l * Cert.Net.augX x l = (∑ κ : Fin 8, W p κ * x κ) + B p := by
  refine (sum_split26 fun l => Cert.Net.augW W B p l * Cert.Net.augX x l).trans ?_
  have e1 : ∀ κ : Fin 8, Cert.Net.augW W B p (Fin.castAdd (8 + (8 + 2)) κ) * Cert.Net.augX x (Fin.castAdd (8 + (8 + 2)) κ)
      = W p κ * x κ := fun κ => by
    rw [augW_lo W B p _ κ.isLt, augX_lo x _ κ.isLt]; rfl
  have e2 : ∀ κ : Fin 8, Cert.Net.augW W B p (Fin.natAdd 8 (Fin.castAdd (8 + 2) κ))
      * Cert.Net.augX x (Fin.natAdd 8 (Fin.castAdd (8 + 2) κ)) = 0 := fun κ => by
    rw [augX_zero x _ (by show 8 ≤ 8 + κ.val; omega) (by show 8 + κ.val < 16; omega), mul_zero]
  have e3 : ∀ κ : Fin 8, Cert.Net.augW W B p (Fin.natAdd 8 (Fin.natAdd 8 (Fin.castAdd 2 κ)))
      * Cert.Net.augX x (Fin.natAdd 8 (Fin.natAdd 8 (Fin.castAdd 2 κ))) = 0 := fun κ => by
    rw [augW_zero W B p _ (by show 16 ≤ 8 + (8 + κ.val); omega) (by show 8 + (8 + κ.val) < 24; omega), zero_mul]
  have e4 : ∑ κ : Fin 2, Cert.Net.augW W B p (Fin.natAdd 8 (Fin.natAdd 8 (Fin.natAdd 8 κ)))
      * Cert.Net.augX x (Fin.natAdd 8 (Fin.natAdd 8 (Fin.natAdd 8 κ))) = B p := by
    rw [Fin.sum_univ_two, augW_bias W B p _ (by rfl), augW_last W B p _ (by rfl), augX_one x _ (by show 24 ≤ 8 + (8 + (8 + 0)); omega),
      mul_one, zero_mul, add_zero]
  rw [Finset.sum_congr rfl fun κ _ => e1 κ, Finset.sum_congr rfl fun κ _ => e2 κ, Finset.sum_congr rfl fun κ _ => e3 κ, e4,
    Finset.sum_const_zero, zero_add, zero_add]

/-! ## The body's [4096, 26] operand -/

/-- Five pieces laid side by side along the second axis, of widths 8, 8, 8, 1, 1, read at (q, l): the piece whose span
    holds l, at row q and at l less the widths before it. -/
theorem concat26_apply {α : Type} (y1 y2 y3 : (⟨2, ![4096, 8]⟩ : Shape).Idx → α) (y4 y5 : (⟨2, ![4096, 1]⟩ : Shape).Idx → α)
    (hcat : Shape.Concatenates
      (([⟨⟨2, ![4096, 8]⟩, y1⟩, ⟨⟨2, ![4096, 8]⟩, y2⟩, ⟨⟨2, ![4096, 8]⟩, y3⟩, ⟨⟨2, ![4096, 1]⟩, y4⟩, ⟨⟨2, ![4096, 1]⟩, y5⟩] :
        List ((s : Shape) × (s.Idx → α))).map (·.1)) ⟨2, ![4096, 26]⟩ 1)
    (q : Fin 4096) (l : Fin 26) :
    concatenate (⟨2, ![4096, 26]⟩ : Shape) 1
        [⟨⟨2, ![4096, 8]⟩, y1⟩, ⟨⟨2, ![4096, 8]⟩, y2⟩, ⟨⟨2, ![4096, 8]⟩, y3⟩, ⟨⟨2, ![4096, 1]⟩, y4⟩, ⟨⟨2, ![4096, 1]⟩, y5⟩] hcat (ix2 q l)
      = if h : l.val < 8 then y1 (ix2 q ⟨l.val, h⟩)
        else if h : l.val < 16 then y2 (ix2 q ⟨l.val - 8, by omega⟩)
        else if h : l.val < 24 then y3 (ix2 q ⟨l.val - 16, by omega⟩)
        else if l.val = 24 then y4 (ix2 q (0 : Fin 1)) else y5 (ix2 q (0 : Fin 1)) := by
  have hoff : ∀ (s₁ : Shape) (hr : s₁.rank = 2) (i : s₁.Idx), (i ⟨0, by omega⟩).val = q.val →
      ∀ b : Fin s₁.rank, b.cast hr ≠ (1 : Fin 2) → (i b).val = ((ix2 q l) (b.cast hr)).val := by
    intro s₁ hr i h0 b hb
    obtain ⟨bv, hbv⟩ := b
    have : bv = 0 := by
      have h2 : bv < 2 := hr ▸ hbv
      have h1 : bv ≠ 1 := fun e => hb (Fin.ext (by simpa using e))
      omega
    subst this
    exact h0
  by_cases c1 : l.val < 8
  · rw [dif_pos c1]
    exact concatenate_apply_piece (1 : Fin 2) _ hcat (ix2 q l) 0 (by show 0 < 5; omega) ⟨2, ![4096, 8]⟩ y1 rfl rfl 0 rfl
      (ix2 q ⟨l.val, c1⟩) (hoff _ rfl _ rfl) (by show 0 + l.val = l.val; omega)
  · rw [dif_neg c1]
    by_cases c2 : l.val < 16
    · rw [dif_pos c2]
      exact concatenate_apply_piece (1 : Fin 2) _ hcat (ix2 q l) 1 (by show 1 < 5; omega) ⟨2, ![4096, 8]⟩ y2 rfl rfl 8 rfl
        (ix2 q ⟨l.val - 8, by omega⟩) (hoff _ rfl _ rfl) (by show 8 + (l.val - 8) = l.val; omega)
    · rw [dif_neg c2]
      by_cases c3 : l.val < 24
      · rw [dif_pos c3]
        exact concatenate_apply_piece (1 : Fin 2) _ hcat (ix2 q l) 2 (by show 2 < 5; omega) ⟨2, ![4096, 8]⟩ y3 rfl rfl 16 rfl
          (ix2 q ⟨l.val - 16, by omega⟩) (hoff _ rfl _ rfl) (by show 16 + (l.val - 16) = l.val; omega)
      · rw [dif_neg c3]
        by_cases c4 : l.val = 24
        · rw [if_pos c4]
          exact concatenate_apply_piece (1 : Fin 2) _ hcat (ix2 q l) 3 (by show 3 < 5; omega) ⟨2, ![4096, 1]⟩ y4 rfl rfl 24 rfl
            (ix2 q (0 : Fin 1)) (hoff _ rfl _ rfl) (by show 24 + 0 = l.val; omega)
        · rw [if_neg c4]
          exact concatenate_apply_piece (1 : Fin 2) _ hcat (ix2 q l) 4 (by show 4 < 5; omega) ⟨2, ![4096, 1]⟩ y5 rfl rfl 25 rfl
            (ix2 q (0 : Fin 1)) (hoff _ rfl _ rfl) (by show 25 + 0 = l.val; have := l.isLt; omega)

/-- The body's own [4096, 26] operand, read at (q, l): the pieces laid side by side along the second axis are the batch
    block, the batch block minus itself (zero, the block being finite), the batch block again, and two columns of
    ones; so row q is the augmented batch row (x, 0, x, 1, 1) of batch row q. -/
theorem aug_row_apply (x0 : FVec Ideal ⟨2, ![4096, 8]⟩ .f32) (hx : ∀ i, ∃ r : ℝ, x0 i = (r : EReal))
    (hlt : FTy.bits .bf16 < FTy.bits .f32)
    (hcat : Shape.Concatenates [(⟨2, ![4096, 8]⟩ : Shape), ⟨2, ![4096, 8]⟩, ⟨2, ![4096, 8]⟩, ⟨2, ![4096, 1]⟩, ⟨2, ![4096, 1]⟩]
      ⟨2, ![4096, 26]⟩ 1)
    (q : Fin 4096) (l : Fin 26) :
    concatenate (α := EReal) (⟨2, ![4096, 26]⟩ : Shape) 1
        [⟨⟨2, ![4096, 8]⟩, truncf (F := Ideal) .bf16 x0 hlt⟩, ⟨⟨2, ![4096, 8]⟩, truncf (F := Ideal) .bf16 (subf x0 x0) hlt⟩,
          ⟨⟨2, ![4096, 8]⟩, truncf (F := Ideal) .bf16 x0 hlt⟩,
          ⟨⟨2, ![4096, 1]⟩, broadcast ⟨2, ![4096, 1]⟩ (Scalar.ofBits (F := Ideal) .bf16 0x3F80#16)⟩,
          ⟨⟨2, ![4096, 1]⟩, broadcast ⟨2, ![4096, 1]⟩ (Scalar.ofBits (F := Ideal) .bf16 0x3F80#16)⟩] hcat (ix2 q l)
      = Cert.Net.augX (fun κ => x0 (ix2 q κ)) l := by
  refine (concat26_apply (α := EReal) _ _ _ _ _ hcat q l).trans ?_
  unfold Cert.Net.augX
  by_cases c1 : l.val < 8
  · rw [dif_pos c1, dif_pos c1]; rfl
  · rw [dif_neg c1, dif_neg c1]
    by_cases c2 : l.val < 16
    · rw [dif_pos c2, if_pos c2]
      exact sub_self_of_finite _ (hx _)
    · rw [dif_neg c2, if_neg c2]
      by_cases c3 : l.val < 24
      · rw [dif_pos c3, dif_pos c3]; rfl
      · rw [dif_neg c3, dif_neg c3]
        by_cases c4 : l.val = 24
        · rw [if_pos c4]; exact ofBits_one_bf16
        · rw [if_neg c4]; exact ofBits_one_bf16

/-! ## The layers -/

/-- The first layer of the body at an entry: the product contracting both operands' second axis, of the augmented
    operand (rows (W, W, 0, B, 0)) with an operand whose row q is the augmented batch row (x, 0, x, 1, 1), rectified, is
    the first dense layer with its bias on x, rectified. -/
theorem layer1_apply {dT : DotDims ⟨2, ![1024, 26]⟩ ⟨2, ![4096, 26]⟩ ⟨2, ![1024, 4096]⟩} (hT : PlainT dT)
    (hr : dT.contr.rank = 1) (hs : dT.contr.size ⟨0, by omega⟩ = 26)
    (x1 : FVec Ideal ⟨2, ![1024, 26]⟩ .bf16) (v6 : FVec Ideal ⟨2, ![4096, 26]⟩ .bf16)
    (W1 : (⟨2, ![1024, 8]⟩ : Shape).Idx → EReal) (B1 : (⟨2, ![1024, 1]⟩ : Shape).Idx → EReal) (x : Fin 8 → EReal) (q : Fin 4096)
    (h1 : ∀ (p : Fin 1024) (l : Fin 26), x1 (ix2 p l) = Cert.Net.augW (Cert.Net.mat W1) (Cert.Net.col B1) p l)
    (h6 : ∀ l : Fin 26, v6 (ix2 q l) = Cert.Net.augX x l)
    (hsc : (⟨2, ![1024, 26]⟩ : Shape).ShapeCasts ⟨2, ![1024, 26]⟩) (hlt : FTy.bits .bf16 < FTy.bits .f32) (p : Fin 1024) :
    maximumf (F := Ideal) (truncf (F := Ideal) .bf16
          (matmul dT none (shapeCast ⟨2, ![1024, 26]⟩ x1 hsc) v6 (constant ⟨2, ![1024, 4096]⟩ .f32 0x00000000#32)) hlt)
        (broadcast ⟨2, ![1024, 4096]⟩ (Scalar.ofBits (F := Ideal) .bf16 0x0000#16)) (ix2 p q)
      = Cert.Net.relu (Cert.Net.layer (Cert.Net.mat W1) (Cert.Net.col B1) x) p := by
  show max (matmul dT none (shapeCast ⟨2, ![1024, 26]⟩ x1 hsc) v6 (constant ⟨2, ![1024, 4096]⟩ .f32 0x00000000#32) (ix2 p q))
      (Ideal.ofBits .bf16 0x0000#16) = max ((∑ κ : Fin 8, Cert.Net.mat W1 p κ * x κ) + Cert.Net.col B1 p) 0
  rw [matmulT_zero_apply hT hr hs, shapeCast_self, ofBits_zero_bf16, ← aug_sum (Cert.Net.mat W1) (Cert.Net.col B1) x p]
  exact congrArg (fun s => max s 0) (Finset.sum_congr rfl fun l _ => by rw [h1 p l, h6 l])

/-- A dense layer of the body at an entry: the plain product into a zero accumulator plus the bias column broadcast
    along the lanes is the dense layer on the operand's column q. -/
theorem dense_apply {n k m : ℕ} {d : DotDims ⟨2, ![n, k]⟩ ⟨2, ![k, m]⟩ ⟨2, ![n, m]⟩} (hd : Cert.PlainDot.Plain d)
    (hr : d.contr.rank = 1) (hs : d.contr.size ⟨0, by omega⟩ = k)
    (W : FVec Ideal ⟨2, ![n, k]⟩ .f32) (b : FVec Ideal ⟨2, ![n, 1]⟩ .f32) (h : FVec Ideal ⟨2, ![k, m]⟩ .f32)
    (hsc : (⟨2, ![n, 1]⟩ : Shape).ShapeCasts ⟨2, ![n, 1]⟩) (hbc : (⟨2, ![n, 1]⟩ : Shape).Broadcasts ⟨2, ![n, m]⟩)
    (p : Fin n) (q : Fin m) :
    addf (F := Ideal) (matmul d none W h (constant ⟨2, ![n, m]⟩ .f32 0x00000000#32))
        (broadcastTo ⟨2, ![n, m]⟩ (shapeCast ⟨2, ![n, 1]⟩ b hsc) hbc) (ix2 p q)
      = Cert.Net.layer (Cert.Net.mat W) (Cert.Net.col b) (fun κ => h (ix2 κ q)) p := by
  show matmul d none W h (constant ⟨2, ![n, m]⟩ .f32 0x00000000#32) (ix2 p q)
      + broadcastTo ⟨2, ![n, m]⟩ (shapeCast ⟨2, ![n, 1]⟩ b hsc) hbc (ix2 p q)
      = (∑ κ : Fin k, W (ix2 p κ) * h (ix2 κ q)) + b (ix2 p 0)
  rw [Cert.PlainDot.matmul_zero_apply hd hr hs, broadcastTo_a1_ab_apply, shapeCast_self]

/-- A rectified dense layer of the body at an entry. -/
theorem dense_relu_apply {n k m : ℕ} {d : DotDims ⟨2, ![n, k]⟩ ⟨2, ![k, m]⟩ ⟨2, ![n, m]⟩} (hd : Cert.PlainDot.Plain d)
    (hr : d.contr.rank = 1) (hs : d.contr.size ⟨0, by omega⟩ = k)
    (W : FVec Ideal ⟨2, ![n, k]⟩ .f32) (b : FVec Ideal ⟨2, ![n, 1]⟩ .f32) (h : FVec Ideal ⟨2, ![k, m]⟩ .f32)
    (hsc : (⟨2, ![n, 1]⟩ : Shape).ShapeCasts ⟨2, ![n, 1]⟩) (hbc : (⟨2, ![n, 1]⟩ : Shape).Broadcasts ⟨2, ![n, m]⟩)
    (p : Fin n) (q : Fin m) :
    maximumf (F := Ideal) (addf (F := Ideal) (matmul d none W h (constant ⟨2, ![n, m]⟩ .f32 0x00000000#32))
          (broadcastTo ⟨2, ![n, m]⟩ (shapeCast ⟨2, ![n, 1]⟩ b hsc) hbc))
        (broadcast ⟨2, ![n, m]⟩ (Scalar.ofBits (F := Ideal) .f32 0x00000000#32)) (ix2 p q)
      = Cert.Net.relu (Cert.Net.layer (Cert.Net.mat W) (Cert.Net.col b) (fun κ => h (ix2 κ q))) p := by
  show max (addf (F := Ideal) (matmul d none W h (constant ⟨2, ![n, m]⟩ .f32 0x00000000#32))
        (broadcastTo ⟨2, ![n, m]⟩ (shapeCast ⟨2, ![n, 1]⟩ b hsc) hbc) (ix2 p q)) (Ideal.ofBits .f32 0x00000000#32)
      = max (Cert.Net.layer (Cert.Net.mat W) (Cert.Net.col b) (fun κ => h (ix2 κ q)) p) 0
  rw [dense_apply hd hr hs, Ideal.ofBits_zero_f32]

/-- The second layer of the body at an entry: the sum of two plain products, with an operand equal to the weight and
    with an all-zero operand, plus the bias column, rectified, is the rectified dense layer with that weight. -/
theorem dense2_relu_apply {n k m : ℕ} {d : DotDims ⟨2, ![n, k]⟩ ⟨2, ![k, m]⟩ ⟨2, ![n, m]⟩} (hd : Cert.PlainDot.Plain d)
    (hr : d.contr.rank = 1) (hs : d.contr.size ⟨0, by omega⟩ = k)
    (x2 x3 : FVec Ideal ⟨2, ![n, k]⟩ .bf16) (w2 : (⟨2, ![n, k]⟩ : Shape).Idx → EReal)
    (h2 : ∀ i, x2 i = w2 i) (h3 : ∀ i, x3 i = 0)
    (b : FVec Ideal ⟨2, ![n, 1]⟩ .f32) (h : FVec Ideal ⟨2, ![k, m]⟩ .bf16)
    (hsw : (⟨2, ![n, k]⟩ : Shape).ShapeCasts ⟨2, ![n, k]⟩)
    (hsc : (⟨2, ![n, 1]⟩ : Shape).ShapeCasts ⟨2, ![n, 1]⟩) (hbc : (⟨2, ![n, 1]⟩ : Shape).Broadcasts ⟨2, ![n, m]⟩)
    (p : Fin n) (q : Fin m) :
    maximumf (F := Ideal) (addf (F := Ideal)
          (addf (F := Ideal) (matmul d none (shapeCast ⟨2, ![n, k]⟩ x2 hsw) h (constant ⟨2, ![n, m]⟩ .f32 0x00000000#32))
            (matmul d none (shapeCast ⟨2, ![n, k]⟩ x3 hsw) h (constant ⟨2, ![n, m]⟩ .f32 0x00000000#32)))
          (broadcastTo ⟨2, ![n, m]⟩ (shapeCast ⟨2, ![n, 1]⟩ b hsc) hbc))
        (broadcast ⟨2, ![n, m]⟩ (Scalar.ofBits (F := Ideal) .f32 0x00000000#32)) (ix2 p q)
      = Cert.Net.relu (Cert.Net.layer (Cert.Net.mat w2) (Cert.Net.col b) (fun κ => h (ix2 κ q))) p := by
  show max ((matmul d none (shapeCast ⟨2, ![n, k]⟩ x2 hsw) h (constant ⟨2, ![n, m]⟩ .f32 0x00000000#32) (ix2 p q)
        + matmul d none (shapeCast ⟨2, ![n, k]⟩ x3 hsw) h (constant ⟨2, ![n, m]⟩ .f32 0x00000000#32) (ix2 p q))
        + broadcastTo ⟨2, ![n, m]⟩ (shapeCast ⟨2, ![n, 1]⟩ b hsc) hbc (ix2 p q)) (Ideal.ofBits .f32 0x00000000#32)
      = max ((∑ κ : Fin k, w2 (ix2 p κ) * h (ix2 κ q)) + b (ix2 p 0)) 0
  have e2 : ∑ κ : Fin k, x2 (ix2 p κ) * h (ix2 κ q) = ∑ κ : Fin k, w2 (ix2 p κ) * h (ix2 κ q) :=
    Finset.sum_congr rfl fun κ _ => by rw [h2 (ix2 p κ)]
  have e3 : ∑ κ : Fin k, x3 (ix2 p κ) * h (ix2 κ q) = 0 :=
    (Finset.sum_congr rfl fun κ _ => by rw [h3 (ix2 p κ), zero_mul]).trans Finset.sum_const_zero
  rw [Cert.PlainDot.matmul_zero_apply hd hr hs, Cert.PlainDot.matmul_zero_apply hd hr hs, broadcastTo_a1_ab_apply,
    shapeCast_self, shapeCast_self, shapeCast_self, Ideal.ofBits_zero_f32, e2, e3, add_zero]

/-! ## The two payloads -/

/-- The first product of the body contracts the second axis of both operands. -/
theorem plainT_1 : PlainT dot_S1024x26_S4096x26_S1024x4096_1_1_0_0_n_n := ⟨rfl, rfl, rfl, rfl, rfl, rfl⟩
/-- The second layer's products are plain. -/
theorem plain_2 : Cert.PlainDot.Plain dot_S128x1024_S1024x4096_S128x4096_1_0_0_1_n_n := ⟨rfl, rfl, rfl, rfl, rfl, rfl⟩
/-- The third layer's product is plain. -/
theorem plain_25 : Cert.PlainDot.Plain dot_S64x128_S128x4096_S64x4096_1_0_0_1_n_n := ⟨rfl, rfl, rfl, rfl, rfl, rfl⟩
/-- The fourth layer's product is plain. -/
theorem plain_3 : Cert.PlainDot.Plain dot_S32x64_S64x4096_S32x4096_1_0_0_1_n_n := ⟨rfl, rfl, rfl, rfl, rfl, rfl⟩
/-- The fifth layer's product is plain. -/
theorem plain_4 : Cert.PlainDot.Plain dot_S16x32_S32x4096_S16x4096_1_0_0_1_n_n := ⟨rfl, rfl, rfl, rfl, rfl, rfl⟩
/-- The last layer's product is plain. -/
theorem plain_5 : Cert.PlainDot.Plain dot_S1x16_S16x4096_S1x4096_1_0_0_1_n_n := ⟨rfl, rfl, rfl, rfl, rfl, rfl⟩

/-- The first three layers: entry (p, q) of the value the body's first part hands on is entry p of the third rectified
    layer on batch row q of the block. -/
theorem pay2_apply (x0 : FVec Ideal S4096x8 .f32) (x1 : FVec Ideal S1024x26 .bf16) (x2 x3 : FVec Ideal S128x1024 .bf16)
    (x4 : FVec Ideal S128x1 .f32) (x5 : FVec Ideal S64x128 .f32) (x6 : FVec Ideal S64x1 .f32)
    (W1 : (⟨2, ![1024, 8]⟩ : Shape).Idx → EReal) (B1 : (⟨2, ![1024, 1]⟩ : Shape).Idx → EReal)
    (w2 : (⟨2, ![128, 1024]⟩ : Shape).Idx → EReal)
    (hx : ∀ i, ∃ r : ℝ, x0 i = (r : EReal))
    (h1 : ∀ (p : Fin 1024) (l : Fin 26), x1 (ix2 p l) = Cert.Net.augW (Cert.Net.mat W1) (Cert.Net.col B1) p l)
    (h2 : ∀ i, x2 i = w2 i) (h3 : ∀ i, x3 i = 0) (p : Fin 64) (q : Fin 4096) :
    k0_pay2 (F := Ideal) x0 x1 x2 x3 x4 x5 x6 (ix2 p q)
      = Cert.Net.relu (Cert.Net.layer (Cert.Net.mat x5) (Cert.Net.col x6)
          (Cert.Net.relu (Cert.Net.layer (Cert.Net.mat w2) (Cert.Net.col x4)
            (Cert.Net.relu (Cert.Net.layer (Cert.Net.mat W1) (Cert.Net.col B1) (fun κ => x0 (ix2 q κ))))))) p := by
  refine (dense_relu_apply plain_25 rfl rfl x5 x6 _ _ _ p q).trans ?_
  refine congrArg (fun h => Cert.Net.relu (Cert.Net.layer (Cert.Net.mat x5) (Cert.Net.col x6) h) p) (funext fun κ => ?_)
  refine (dense2_relu_apply plain_2 rfl rfl x2 x3 w2 h2 h3 x4 _ _ _ _ κ q).trans ?_
  refine congrArg (fun h => Cert.Net.relu (Cert.Net.layer (Cert.Net.mat w2) (Cert.Net.col x4) h) κ) (funext fun κ' => ?_)
  exact layer1_apply plainT_1 rfl rfl x1 _ W1 B1 _ q h1 (fun l => aug_row_apply x0 hx _ _ q l) _ _ κ'

/-- The last three layers: the stored value at lane q is the last dense layer's one entry, on the two rectified layers
    before it, on column q of the value handed on. -/
theorem pay1_apply (v33 : FVec Ideal S64x4096 .f32) (x7 : FVec Ideal S32x64 .f32) (x8 : FVec Ideal S32x1 .f32)
    (x9 : FVec Ideal S16x32 .f32) (x10 : FVec Ideal S16x1 .f32) (x11 : FVec Ideal S1x16 .f32) (x12 : FVec Ideal S1x1 .f32)
    (q : Fin 4096) :
    k0_pay1 (F := Ideal) v33 x7 x8 x9 x10 x11 x12 (ix3 0 0 q)
      = Cert.Net.layer (Cert.Net.mat x11) (Cert.Net.col x12)
          (Cert.Net.relu (Cert.Net.layer (Cert.Net.mat x9) (Cert.Net.col x10)
            (Cert.Net.relu (Cert.Net.layer (Cert.Net.mat x7) (Cert.Net.col x8) (fun κ => v33 (ix2 κ q)))))) 0 := by
  unfold k0_pay1
  refine (shapeCast_ab_1ab_apply (a := 1) (b := 4096) _ _ 0 0 q).trans ?_
  refine (dense_apply plain_5 rfl rfl x11 x12 _ _ _ 0 q).trans ?_
  refine congrArg (fun h => Cert.Net.layer (Cert.Net.mat x11) (Cert.Net.col x12) h 0) (funext fun κ => ?_)
  refine (dense_relu_apply plain_4 rfl rfl x9 x10 _ _ _ κ q).trans ?_
  refine congrArg (fun h => Cert.Net.relu (Cert.Net.layer (Cert.Net.mat x9) (Cert.Net.col x10) h) κ) (funext fun κ' => ?_)
  exact dense_relu_apply plain_3 rfl rfl x7 x8 _ _ _ κ' q

/-- The kernel body's stored value at lane `q` is the network on row `q` of the batch block, when the batch block is
    finite, the augmented operand's rows are (W1, W1, 0, B1, 0), the first half of the second weight is `w2` and the
    second half is zero. -/
theorem pay_apply (x0 : Vec Ideal S4096x8 .f32) (x1 : Vec Ideal S1024x26 .bf16) (x2 x3 : Vec Ideal S128x1024 .bf16)
    (x4 : Vec Ideal S128x1 .f32) (x5 : Vec Ideal S64x128 .f32) (x6 : Vec Ideal S64x1 .f32)
    (x7 : Vec Ideal S32x64 .f32) (x8 : Vec Ideal S32x1 .f32) (x9 : Vec Ideal S16x32 .f32) (x10 : Vec Ideal S16x1 .f32)
    (x11 : Vec Ideal S1x16 .f32) (x12 : Vec Ideal S1x1 .f32)
    (W1 : (⟨2, ![1024, 8]⟩ : Shape).Idx → EReal) (B1 : (⟨2, ![1024, 1]⟩ : Shape).Idx → EReal)
    (w2 : (⟨2, ![128, 1024]⟩ : Shape).Idx → EReal)
    (hx : ∀ i, ∃ r : ℝ, x0 i = (r : EReal))
    (h1 : ∀ (p : Fin 1024) (l : Fin 26), x1 (ix2 p l) = Cert.Net.augW (Cert.Net.mat W1) (Cert.Net.col B1) p l)
    (h2 : ∀ i, x2 i = w2 i) (h3 : ∀ i, x3 i = 0) (q : Fin 4096) :
    k0_pay1 (F := Ideal) (k0_pay2 (F := Ideal) x0 x1 x2 x3 x4 x5 x6) x7 x8 x9 x10 x11 x12 (ix3 0 0 q)
      = Cert.Net.netA W1 B1 w2 x4 x5 x6 x7 x8 x9 x10 x11 x12 (fun κ => x0 (ix2 q κ)) := by
  refine (pay1_apply _ x7 x8 x9 x10 x11 x12 q).trans ?_
  unfold Cert.Net.netA Cert.Net.net
  exact congrArg (fun h => Cert.Net.layer (Cert.Net.mat x11) (Cert.Net.col x12)
      (Cert.Net.relu (Cert.Net.layer (Cert.Net.mat x9) (Cert.Net.col x10)
        (Cert.Net.relu (Cert.Net.layer (Cert.Net.mat x7) (Cert.Net.col x8) h)))) 0)
    (funext fun κ => pay2_apply x0 x1 x2 x3 x4 x5 x6 W1 B1 w2 hx h1 h2 h3 κ q)

end Cert.KerPay

end
-- ==== Proof.KernelEntry.lean ====
/-
  What the kernel's region finds in the operands the host lines split into rounded parts and remainders.

  The augmented [1024, 26] operand is the concatenation along the second axis of: the first layer's weight W1 rounded,
  the same again, W1 minus its rounded copy (rounded), the bias column B1 rounded, and B1 minus its rounded copy
  (rounded). On the extended reals rounding and widening are the identity, and a finite value minus itself is zero, so
  its row p is (W1 p ·, W1 p ·, 0 … 0, B1 p, 0). Likewise the first half of the second layer's weight is the weight and
  the second half, the weight minus its rounded copy, is zero when the weight is finite.
-/
import proofs.«120824_g2000504593560428_pallasbulk_1050_9_alg».proof.Proof.KernelIdealFrame
import proofs.«120824_g2000504593560428_pallasbulk_1050_9_alg».proof.Proof.Net
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KerEntry

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (c : Dev nD)

/-- A finite extended real minus itself is zero. -/
theorem sub_self_of_real (a : EReal) (h : ∃ x : ℝ, a = (x : EReal)) : a - a = 0 := by
  obtain ⟨x, rfl⟩ := h
  rw [← EReal.coe_sub, sub_self, EReal.coe_zero]

/-- Five arrays of widths 8, 8, 8, 1, 1 concatenated along the second axis, read at (p, l): the piece whose span of
    columns holds l, at l's offset within it. -/
theorem concat5_apply (x0 x1 x2 : S1024x8.Idx → EReal) (x3 x4 : S1024x1.Idx → EReal)
    (h : Shape.Concatenates [S1024x8, S1024x8, S1024x8, S1024x1, S1024x1] S1024x26 1) (p : Fin 1024) (l : Fin 26) :
    concatenate S1024x26 1 [⟨S1024x8, x0⟩, ⟨S1024x8, x1⟩, ⟨S1024x8, x2⟩, ⟨S1024x1, x3⟩, ⟨S1024x1, x4⟩] h (ix2 p l)
      = if h0 : l.val < 8 then x0 (ix2 p ⟨l.val, h0⟩)
        else if h1 : l.val < 16 then x1 (ix2 p ⟨l.val - 8, by omega⟩)
        else if h2 : l.val < 24 then x2 (ix2 p ⟨l.val - 16, by omega⟩)
        else if l.val = 24 then x3 (ix2 p (0 : Fin 1)) else x4 (ix2 p (0 : Fin 1)) := by
  have hl := l.isLt
  by_cases h0 : l.val < 8
  · rw [dif_pos h0]
    exact concatenate_apply_piece (t := S1024x26) 1 [⟨S1024x8, x0⟩, ⟨S1024x8, x1⟩, ⟨S1024x8, x2⟩, ⟨S1024x1, x3⟩, ⟨S1024x1, x4⟩] h (ix2 p l) 0 (by show (0 : ℕ) < 5; omega) S1024x8 x0 rfl rfl 0 rfl
      (ix2 p ⟨l.val, h0⟩) (fun b hb => by match b with | ⟨0, _⟩ => rfl | ⟨1, _⟩ => exact absurd rfl hb) (by show 0 + l.val = l.val; omega)
  · rw [dif_neg h0]
    by_cases h1 : l.val < 16
    · rw [dif_pos h1]
      exact concatenate_apply_piece (t := S1024x26) 1 [⟨S1024x8, x0⟩, ⟨S1024x8, x1⟩, ⟨S1024x8, x2⟩, ⟨S1024x1, x3⟩, ⟨S1024x1, x4⟩] h (ix2 p l) 1 (by show (1 : ℕ) < 5; omega) S1024x8 x1 rfl rfl 8 rfl
        (ix2 p ⟨l.val - 8, by omega⟩) (fun b hb => by match b with | ⟨0, _⟩ => rfl | ⟨1, _⟩ => exact absurd rfl hb) (by show 8 + (l.val - 8) = l.val; omega)
    · rw [dif_neg h1]
      by_cases h2 : l.val < 24
      · rw [dif_pos h2]
        exact concatenate_apply_piece (t := S1024x26) 1 [⟨S1024x8, x0⟩, ⟨S1024x8, x1⟩, ⟨S1024x8, x2⟩, ⟨S1024x1, x3⟩, ⟨S1024x1, x4⟩] h (ix2 p l) 2 (by show (2 : ℕ) < 5; omega) S1024x8 x2 rfl rfl 16 rfl
          (ix2 p ⟨l.val - 16, by omega⟩) (fun b hb => by match b with | ⟨0, _⟩ => rfl | ⟨1, _⟩ => exact absurd rfl hb) (by show 16 + (l.val - 16) = l.val; omega)
      · rw [dif_neg h2]
        by_cases h3 : l.val = 24
        · rw [if_pos h3]
          exact concatenate_apply_piece (t := S1024x26) 1 [⟨S1024x8, x0⟩, ⟨S1024x8, x1⟩, ⟨S1024x8, x2⟩, ⟨S1024x1, x3⟩, ⟨S1024x1, x4⟩] h (ix2 p l) 3 (by show (3 : ℕ) < 5; omega) S1024x1 x3 rfl rfl 24 rfl
            (ix2 p (0 : Fin 1)) (fun b hb => by match b with | ⟨0, _⟩ => rfl | ⟨1, _⟩ => exact absurd rfl hb) (by show 24 + 0 = l.val; omega)
        · rw [if_neg h3]
          exact concatenate_apply_piece (t := S1024x26) 1 [⟨S1024x8, x0⟩, ⟨S1024x8, x1⟩, ⟨S1024x8, x2⟩, ⟨S1024x1, x3⟩, ⟨S1024x1, x4⟩] h (ix2 p l) 4 (by show (4 : ℕ) < 5; omega) S1024x1 x4 rfl rfl 25 rfl
            (ix2 p (0 : Fin 1)) (fun b hb => by match b with | ⟨0, _⟩ => rfl | ⟨1, _⟩ => exact absurd rfl hb) (by show 25 + 0 = l.val; omega)

/-- The result of a five-operand operation at its own result buffer: its function on the five operands' contents, each
    read at its own buffer. -/
theorem nary5_result' {Val : EltTy → Type} {x a b d e y : Ref sig .tc}
    (f : ((k : Fin 5) → ((![x, a, b, d, e] : Fin 5 → Ref sig .tc) k).ty.Contents Val) → y.ty.Contents Val) (hxs hy)
    (G : Valuation τ sig Val) :
    (StableHlo.nary (τ := τ) ![x, a, b, d, e] y f hxs hy).result G (no_index (Proc.devRef .tc y))
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [StableHlo.nary_result]; congr 1; funext k; fin_cases k <;> rfl

set_option maxHeartbeats 4000000 in
/-- The augmented operand as the region finds it: the concatenation, along the second axis, of W1 rounded, the same
    again, W1 minus its rounded copy (rounded), B1 rounded, and B1 minus its rounded copy (rounded), W1 and B1 being
    what the region finds in their buffers. -/
theorem v19_eq :
    (V m c main_v19 : S1024x26.Idx → EReal)
      = concatenate (α := EReal) S1024x26 1
          [⟨S1024x8, truncf (F := Ideal) .bf16 (V m c main_v6 : FVec Ideal S1024x8 .f32) bitsLt_bf16_f32⟩,
           ⟨S1024x8, truncf (F := Ideal) .bf16 (V m c main_v6 : FVec Ideal S1024x8 .f32) bitsLt_bf16_f32⟩,
           ⟨S1024x8, truncf (F := Ideal) .bf16 (subf (V m c main_v6 : FVec Ideal S1024x8 .f32)
              (extf (F := Ideal) .f32 (truncf (F := Ideal) .bf16 (V m c main_v6 : FVec Ideal S1024x8 .f32) bitsLt_bf16_f32) bitsLt_bf16_f32)) bitsLt_bf16_f32⟩,
           ⟨S1024x1, truncf (F := Ideal) .bf16 (V m c main_v14 : FVec Ideal S1024x1 .f32) bitsLt_bf16_f32⟩,
           ⟨S1024x1, truncf (F := Ideal) .bf16 (subf (V m c main_v14 : FVec Ideal S1024x1 .f32)
              (extf (F := Ideal) .f32 (truncf (F := Ideal) .bf16 (V m c main_v14 : FVec Ideal S1024x1 .f32) bitsLt_bf16_f32) bitsLt_bf16_f32)) bitsLt_bf16_f32⟩]
          concatenates_S1024x8_S1024x8_S1024x8_S1024x1_S1024x1_S1024x26_d1 := by
  dsimp only [V, V0]
  simp only [hostOps0, hostOps0_1, hostOps0_2, List.flatten_cons, List.flatten_nil, List.append_nil, List.cons_append, List.nil_append]
  simp (disch := decide) only [StableHlo.after_cons, StableHlo.after_nil,
    StableHlo.nullary_result', StableHlo.unary_result', StableHlo.binary_result', StableHlo.reshape_result', nary5_result',
    StableHlo.nullary_result_ne', StableHlo.unary_result_ne', StableHlo.binary_result_ne', StableHlo.reshape_result_ne',
    StableHlo.nary_result_ne']
  rfl

/-- Row `p` of the augmented operand is (W1 p ·, W1 p ·, 0, B1 p, 0), when W1 and B1 as the region finds them are finite. -/
theorem waug_apply
    (hW1 : ∀ i, ∃ x : ℝ, (V m c main_v6 : S1024x8.Idx → EReal) i = (x : EReal))
    (hB1 : ∀ i, ∃ x : ℝ, (V m c main_v14 : S1024x1.Idx → EReal) i = (x : EReal)) (p : Fin 1024) (l : Fin 26) :
    (V m c main_v19 : S1024x26.Idx → EReal) (ix2 p l)
      = Cert.Net.augW (Cert.Net.mat (V m c main_v6 : S1024x8.Idx → EReal)) (Cert.Net.col (V m c main_v14 : S1024x1.Idx → EReal)) p l := by
  refine (congrFun (v19_eq m c) (ix2 p l)).trans ?_
  refine (concat5_apply _ _ _ _ _ _ p l).trans ?_
  unfold Cert.Net.augW
  by_cases h0 : l.val < 8
  · -- the first copy of the rounded weight: rounding is the identity
    rw [dif_pos h0, dif_pos h0]; rfl
  · rw [dif_neg h0, dif_neg h0]
    by_cases h1 : l.val < 16
    · -- the second copy
      rw [dif_pos h1, dif_pos h1]; rfl
    · rw [dif_neg h1, dif_neg h1]
      by_cases h2 : l.val < 24
      · -- the weight minus its rounded copy: a finite value minus itself
        rw [dif_pos h2, if_pos h2]
        exact sub_self_of_real ((V m c main_v6 : S1024x8.Idx → EReal) (ix2 p ⟨l.val - 16, by omega⟩)) (hW1 _)
      · rw [dif_neg h2, if_neg h2]
        by_cases h3 : l.val = 24
        · -- the rounded bias column
          rw [if_pos h3, if_pos h3]; rfl
        · -- the bias minus its rounded copy
          rw [if_neg h3, if_neg h3]
          exact sub_self_of_real ((V m c main_v14 : S1024x1.Idx → EReal) (ix2 p (0 : Fin 1))) (hB1 _)

set_option maxHeartbeats 4000000 in
/-- The first half of the second layer's weight is the weight. -/
theorem w2hi_apply (i : S128x1024.Idx) :
    (V m c main_v20 : S128x1024.Idx → EReal) i = (m ((c.tc : Thread nD τ).loc main_arg3) : S128x1024.Idx → EReal) i := by
  dsimp only [V, V0]
  simp only [hostOps0, hostOps0_1, hostOps0_2, List.flatten_cons, List.flatten_nil, List.append_nil, List.cons_append, List.nil_append]
  after_results_simp
  rfl

set_option maxHeartbeats 4000000 in
/-- The second half is zero, when the weight is finite. -/
theorem w2lo_apply (hW2 : ∀ i, ∃ x : ℝ, (m ((c.tc : Thread nD τ).loc main_arg3) : S128x1024.Idx → EReal) i = (x : EReal)) (i : S128x1024.Idx) :
    (V m c main_v23 : S128x1024.Idx → EReal) i = (0 : EReal) := by
  dsimp only [V, V0]
  simp only [hostOps0, hostOps0_1, hostOps0_2, List.flatten_cons, List.flatten_nil, List.append_nil, List.cons_append, List.nil_append]
  after_results_simp
  exact sub_self_of_real _ (hW2 i)

end Cert.KerEntry

end
-- ==== Proof.KernelValue.lean ====
/-
  The kernel program's result array, read off its frame run: row i of the [1048576, 1] result is the network on row i
  of the batch.

  The region's grid has 256 points; at point t the batch's window is rows 4096·t … 4096·t + 4095 of the batch, every
  other input window is its whole array, and the output window is block t of the [256, 1, 4096] result, written back
  at every point. The blocks tile the result, so after the run its entry (t, 0, q) is the payload of point t at lane
  q, which is the network on batch row 4096·t + q. The two reshapes after the region read it as a [1048576] vector and
  then as a [1048576, 1] column: row-major positions are unchanged, so row i of the result is entry
  (i / 4096, 0, i % 4096).

  What the region finds in its operands: the augmented first operand is the concatenation of the weight W1 rounded
  (twice), W1 minus its rounded copy, the bias column B1 rounded, and B1 minus its rounded copy; on the extended reals
  rounding is the identity and a finite value minus itself is zero, so its rows are (W1, W1, 0, B1, 0). Likewise the
  second weight's halves are the weight and zero.
-/
import proofs.«120824_g2000504593560428_pallasbulk_1050_9_alg».proof.Proof.KernelIdealFrame
import proofs.«120824_g2000504593560428_pallasbulk_1050_9_alg».proof.Proof.Net
import proofs.«120824_g2000504593560428_pallasbulk_1050_9_alg».proof.Proof.KernelPayload
import proofs.«120824_g2000504593560428_pallasbulk_1050_9_alg».proof.Proof.KernelEntry
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KerValue

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ)

/-- The offsets (0, 0), however spelt, are zero on every axis. -/
theorem hz2 : (![0, 0] : Fin 2 → Nat) = fun _ => 0 := funext fun a => by fin_cases a <;> rfl
/-- The offsets (0, 0, 0), however spelt, are zero on every axis. -/
theorem hz3 : (![0, 0, 0] : Fin 3 → Nat) = fun _ => 0 := funext fun a => by fin_cases a <;> rfl

/-- The block indices of the batch's window and of the output's window, at every grid point: block t of the batch's rows,
    and block (t, 0, 0) of the result. -/
theorem idx_facts : ∀ t : Fin cfg0.N, win0_0.index t (0 : Fin 2) = t.val ∧ win0_0.index t (1 : Fin 2) = 0
    ∧ win0_13.index t (0 : Fin 3) = t.val ∧ win0_13.index t (1 : Fin 3) = 0 ∧ win0_13.index t (2 : Fin 3) = 0 :=
  (by decide +kernel : ∀ t : Fin grid0.N, _)

/-- Window 1's block at every point is its whole array: its block index is (0, 0) and the block has the array's shape. -/
theorem iblk1 (c : Dev nD) (t : Fin cfg0.N) : (iblk m c 1 t : Vec Ideal S1024x26 .bf16) = V m c main_v19 := by
  funext y
  show V m c main_v19 (((cfg0.win 1).blk t).view.emb y) = _
  congr 1
  funext a
  apply Fin.ext
  match a with
  | ⟨0, _⟩ => show win0_1.index t (0 : Fin 2) * 1024 + 1 * (y 0).val = (y 0).val; rw [show win0_1.index t (0 : Fin 2) = 0 from rfl]; omega
  | ⟨1, _⟩ => show win0_1.index t (1 : Fin 2) * 26 + 1 * (y 1).val = (y 1).val; rw [show win0_1.index t (1 : Fin 2) = 0 from rfl]; omega

/-- Window 2's block at every point is its whole array: its block index is (0, 0) and the block has the array's shape. -/
theorem iblk2 (c : Dev nD) (t : Fin cfg0.N) : (iblk m c 2 t : Vec Ideal S128x1024 .bf16) = V m c main_v20 := by
  funext y
  show V m c main_v20 (((cfg0.win 2).blk t).view.emb y) = _
  congr 1
  funext a
  apply Fin.ext
  match a with
  | ⟨0, _⟩ => show win0_2.index t (0 : Fin 2) * 128 + 1 * (y 0).val = (y 0).val; rw [show win0_2.index t (0 : Fin 2) = 0 from rfl]; omega
  | ⟨1, _⟩ => show win0_2.index t (1 : Fin 2) * 1024 + 1 * (y 1).val = (y 1).val; rw [show win0_2.index t (1 : Fin 2) = 0 from rfl]; omega

/-- Window 3's block at every point is its whole array: its block index is (0, 0) and the block has the array's shape. -/
theorem iblk3 (c : Dev nD) (t : Fin cfg0.N) : (iblk m c 3 t : Vec Ideal S128x1024 .bf16) = V m c main_v23 := by
  funext y
  show V m c main_v23 (((cfg0.win 3).blk t).view.emb y) = _
  congr 1
  funext a
  apply Fin.ext
  match a with
  | ⟨0, _⟩ => show win0_3.index t (0 : Fin 2) * 128 + 1 * (y 0).val = (y 0).val; rw [show win0_3.index t (0 : Fin 2) = 0 from rfl]; omega
  | ⟨1, _⟩ => show win0_3.index t (1 : Fin 2) * 1024 + 1 * (y 1).val = (y 1).val; rw [show win0_3.index t (1 : Fin 2) = 0 from rfl]; omega

/-- Window 4's block at every point is its whole array: its block index is (0, 0) and the block has the array's shape. -/
theorem iblk4 (c : Dev nD) (t : Fin cfg0.N) : (iblk m c 4 t : Vec Ideal S128x1 .f32) = V m c main_v24 := by
  funext y
  show V m c main_v24 (((cfg0.win 4).blk t).view.emb y) = _
  congr 1
  funext a
  apply Fin.ext
  match a with
  | ⟨0, _⟩ => show win0_4.index t (0 : Fin 2) * 128 + 1 * (y 0).val = (y 0).val; rw [show win0_4.index t (0 : Fin 2) = 0 from rfl]; omega
  | ⟨1, _⟩ => show win0_4.index t (1 : Fin 2) * 1 + 1 * (y 1).val = (y 1).val; rw [show win0_4.index t (1 : Fin 2) = 0 from rfl]; omega

/-- Window 5's block at every point is its whole array: its block index is (0, 0) and the block has the array's shape. -/
theorem iblk5 (c : Dev nD) (t : Fin cfg0.N) : (iblk m c 5 t : Vec Ideal S64x128 .f32) = m ((c.tc : Thread nD τ).loc main_arg5) := by
  funext y
  show V m c main_arg5 (((cfg0.win 5).blk t).view.emb y) = _
  rw [V_main_arg5]
  congr 1
  funext a
  apply Fin.ext
  match a with
  | ⟨0, _⟩ => show win0_5.index t (0 : Fin 2) * 64 + 1 * (y 0).val = (y 0).val; rw [show win0_5.index t (0 : Fin 2) = 0 from rfl]; omega
  | ⟨1, _⟩ => show win0_5.index t (1 : Fin 2) * 128 + 1 * (y 1).val = (y 1).val; rw [show win0_5.index t (1 : Fin 2) = 0 from rfl]; omega

/-- Window 6's block at every point is its whole array: its block index is (0, 0) and the block has the array's shape. -/
theorem iblk6 (c : Dev nD) (t : Fin cfg0.N) : (iblk m c 6 t : Vec Ideal S64x1 .f32) = V m c main_v25 := by
  funext y
  show V m c main_v25 (((cfg0.win 6).blk t).view.emb y) = _
  congr 1
  funext a
  apply Fin.ext
  match a with
  | ⟨0, _⟩ => show win0_6.index t (0 : Fin 2) * 64 + 1 * (y 0).val = (y 0).val; rw [show win0_6.index t (0 : Fin 2) = 0 from rfl]; omega
  | ⟨1, _⟩ => show win0_6.index t (1 : Fin 2) * 1 + 1 * (y 1).val = (y 1).val; rw [show win0_6.index t (1 : Fin 2) = 0 from rfl]; omega

/-- Window 7's block at every point is its whole array: its block index is (0, 0) and the block has the array's shape. -/
theorem iblk7 (c : Dev nD) (t : Fin cfg0.N) : (iblk m c 7 t : Vec Ideal S32x64 .f32) = m ((c.tc : Thread nD τ).loc main_arg7) := by
  funext y
  show V m c main_arg7 (((cfg0.win 7).blk t).view.emb y) = _
  rw [V_main_arg7]
  congr 1
  funext a
  apply Fin.ext
  match a with
  | ⟨0, _⟩ => show win0_7.index t (0 : Fin 2) * 32 + 1 * (y 0).val = (y 0).val; rw [show win0_7.index t (0 : Fin 2) = 0 from rfl]; omega
  | ⟨1, _⟩ => show win0_7.index t (1 : Fin 2) * 64 + 1 * (y 1).val = (y 1).val; rw [show win0_7.index t (1 : Fin 2) = 0 from rfl]; omega

/-- Window 8's block at every point is its whole array: its block index is (0, 0) and the block has the array's shape. -/
theorem iblk8 (c : Dev nD) (t : Fin cfg0.N) : (iblk m c 8 t : Vec Ideal S32x1 .f32) = V m c main_v26 := by
  funext y
  show V m c main_v26 (((cfg0.win 8).blk t).view.emb y) = _
  congr 1
  funext a
  apply Fin.ext
  match a with
  | ⟨0, _⟩ => show win0_8.index t (0 : Fin 2) * 32 + 1 * (y 0).val = (y 0).val; rw [show win0_8.index t (0 : Fin 2) = 0 from rfl]; omega
  | ⟨1, _⟩ => show win0_8.index t (1 : Fin 2) * 1 + 1 * (y 1).val = (y 1).val; rw [show win0_8.index t (1 : Fin 2) = 0 from rfl]; omega

/-- Window 9's block at every point is its whole array: its block index is (0, 0) and the block has the array's shape. -/
theorem iblk9 (c : Dev nD) (t : Fin cfg0.N) : (iblk m c 9 t : Vec Ideal S16x32 .f32) = m ((c.tc : Thread nD τ).loc main_arg9) := by
  funext y
  show V m c main_arg9 (((cfg0.win 9).blk t).view.emb y) = _
  rw [V_main_arg9]
  congr 1
  funext a
  apply Fin.ext
  match a with
  | ⟨0, _⟩ => show win0_9.index t (0 : Fin 2) * 16 + 1 * (y 0).val = (y 0).val; rw [show win0_9.index t (0 : Fin 2) = 0 from rfl]; omega
  | ⟨1, _⟩ => show win0_9.index t (1 : Fin 2) * 32 + 1 * (y 1).val = (y 1).val; rw [show win0_9.index t (1 : Fin 2) = 0 from rfl]; omega

/-- Window 10's block at every point is its whole array: its block index is (0, 0) and the block has the array's shape. -/
theorem iblk10 (c : Dev nD) (t : Fin cfg0.N) : (iblk m c 10 t : Vec Ideal S16x1 .f32) = V m c main_v27 := by
  funext y
  show V m c main_v27 (((cfg0.win 10).blk t).view.emb y) = _
  congr 1
  funext a
  apply Fin.ext
  match a with
  | ⟨0, _⟩ => show win0_10.index t (0 : Fin 2) * 16 + 1 * (y 0).val = (y 0).val; rw [show win0_10.index t (0 : Fin 2) = 0 from rfl]; omega
  | ⟨1, _⟩ => show win0_10.index t (1 : Fin 2) * 1 + 1 * (y 1).val = (y 1).val; rw [show win0_10.index t (1 : Fin 2) = 0 from rfl]; omega

/-- Window 11's block at every point is its whole array: its block index is (0, 0) and the block has the array's shape. -/
theorem iblk11 (c : Dev nD) (t : Fin cfg0.N) : (iblk m c 11 t : Vec Ideal S1x16 .f32) = m ((c.tc : Thread nD τ).loc main_arg11) := by
  funext y
  show V m c main_arg11 (((cfg0.win 11).blk t).view.emb y) = _
  rw [V_main_arg11]
  congr 1
  funext a
  apply Fin.ext
  match a with
  | ⟨0, _⟩ => show win0_11.index t (0 : Fin 2) * 1 + 1 * (y 0).val = (y 0).val; rw [show win0_11.index t (0 : Fin 2) = 0 from rfl]; omega
  | ⟨1, _⟩ => show win0_11.index t (1 : Fin 2) * 16 + 1 * (y 1).val = (y 1).val; rw [show win0_11.index t (1 : Fin 2) = 0 from rfl]; omega

/-- Window 12's block at every point is its whole array: its block index is (0, 0) and the block has the array's shape. -/
theorem iblk12 (c : Dev nD) (t : Fin cfg0.N) : (iblk m c 12 t : Vec Ideal S1x1 .f32) = V m c main_v28 := by
  funext y
  show V m c main_v28 (((cfg0.win 12).blk t).view.emb y) = _
  congr 1
  funext a
  apply Fin.ext
  match a with
  | ⟨0, _⟩ => show win0_12.index t (0 : Fin 2) * 1 + 1 * (y 0).val = (y 0).val; rw [show win0_12.index t (0 : Fin 2) = 0 from rfl]; omega
  | ⟨1, _⟩ => show win0_12.index t (1 : Fin 2) * 1 + 1 * (y 1).val = (y 1).val; rw [show win0_12.index t (1 : Fin 2) = 0 from rfl]; omega

/-- Batch row of lane q of block t: the blocks are 4096 consecutive rows each. -/
def row (t : Fin 256) (q : Fin 4096) : Fin 1048576 := ⟨4096 * t.val + q.val, by omega⟩

/-- The region's [256, 1, 4096] result as one function of the region-entry operands: entry (t, 0, q) is the network on
    batch row 4096·t + q. -/
def regionOut (c : Dev nD) : S256x1x4096.Idx → EReal := fun j =>
  Cert.Net.netA (V m c main_v6) (V m c main_v14) (m ((c.tc : Thread nD τ).loc main_arg3)) (V m c main_v24) (m ((c.tc : Thread nD τ).loc main_arg5)) (V m c main_v25) (m ((c.tc : Thread nD τ).loc main_arg7)) (V m c main_v26) (m ((c.tc : Thread nD τ).loc main_arg9)) (V m c main_v27) (m ((c.tc : Thread nD τ).loc main_arg11)) (V m c main_v28)
    (fun κ => (m ((c.tc : Thread nD τ).loc main_arg0) : S1048576x8.Idx → EReal) (ix2 (row (j 0) (j 2)) κ))

/-- The body's stored value at any index of the [1, 1, 4096] block: the index is (0, 0, q), so it is the network on row q
    of the batch block. -/
theorem pay_block (x0 : Vec Ideal S4096x8 .f32) (x1 : Vec Ideal S1024x26 .bf16) (x2 x3 : Vec Ideal S128x1024 .bf16)
    (x4 : Vec Ideal S128x1 .f32) (x5 : Vec Ideal S64x128 .f32) (x6 : Vec Ideal S64x1 .f32)
    (x7 : Vec Ideal S32x64 .f32) (x8 : Vec Ideal S32x1 .f32) (x9 : Vec Ideal S16x32 .f32) (x10 : Vec Ideal S16x1 .f32)
    (x11 : Vec Ideal S1x16 .f32) (x12 : Vec Ideal S1x1 .f32)
    (W1 : (⟨2, ![1024, 8]⟩ : Shape).Idx → EReal) (B1 : (⟨2, ![1024, 1]⟩ : Shape).Idx → EReal)
    (w2 : (⟨2, ![128, 1024]⟩ : Shape).Idx → EReal)
    (hx : ∀ i, ∃ r : ℝ, x0 i = (r : EReal))
    (h1 : ∀ (p : Fin 1024) (l : Fin 26), x1 (ix2 p l) = Cert.Net.augW (Cert.Net.mat W1) (Cert.Net.col B1) p l)
    (h2 : ∀ i, x2 i = w2 i) (h3 : ∀ i, x3 i = 0) (y : S1x1x4096.Idx) :
    k0_pay1 (F := Ideal) (k0_pay2 (F := Ideal) x0 x1 x2 x3 x4 x5 x6) x7 x8 x9 x10 x11 x12 y
      = Cert.Net.netA W1 B1 w2 x4 x5 x6 x7 x8 x9 x10 x11 x12 (fun κ => x0 (ix2 (y 2) κ)) := by
  have hy : y = ix3 0 0 (y 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  obtain ⟨q, rfl⟩ : ∃ q : Fin 4096, y = ix3 0 0 q := ⟨y 2, hy⟩
  exact Cert.KerPay.pay_apply x0 x1 x2 x3 x4 x5 x6 x7 x8 x9 x10 x11 x12 W1 B1 w2 hx h1 h2 h3 q

/-- An index of the result is in point t's block iff each coordinate is in the block's range on its axis. -/
theorem mem_blk13 (t : Fin cfg0.N) (i : S256x1x4096.Idx) :
    i ∈ ((cfg0.win 13).blk t).view.set ↔ ∀ a : Fin 3, win0_13.index t a * S1x1x4096.size a ≤ (i a).val ∧ (i a).val < win0_13.index t a * S1x1x4096.size a + S1x1x4096.size a := by
  show i ∈ ((View.whole main_v29).slice (win0_13.rect t)).set ↔ _
  rw [View.set_slice_whole, Rect.mem_set_unit]
  exact Iff.rfl

/-- Every entry (t', 0, q) of the result lies in the block of point t'. -/
theorem cover13 (i : S256x1x4096.Idx) : ∃ t : Fin cfg0.N, (cfg0.win 13).flush t = true ∧ i ∈ ((cfg0.win 13).blk t).view.set := by
  have h0 : (i 0).val < 256 := (i 0).isLt
  have h1 : (i 1).val < 1 := (i 1).isLt
  have h2 : (i 2).val < 4096 := (i 2).isLt
  refine ⟨⟨(i 0).val, lt_of_lt_of_eq h0 N_0.symm⟩, flush0_13 _, ?_⟩
  rw [mem_blk13]
  obtain ⟨-, -, e0, e1, e2⟩ := idx_facts ⟨(i 0).val, lt_of_lt_of_eq h0 N_0.symm⟩
  intro a
  match a with
  | ⟨0, _⟩ => show win0_13.index _ (0 : Fin 3) * 1 ≤ (i 0).val ∧ (i 0).val < win0_13.index _ (0 : Fin 3) * 1 + 1; rw [e0]; show (i 0).val * 1 ≤ (i 0).val ∧ (i 0).val < (i 0).val * 1 + 1; omega
  | ⟨1, _⟩ => show win0_13.index _ (1 : Fin 3) * 1 ≤ (i 1).val ∧ (i 1).val < win0_13.index _ (1 : Fin 3) * 1 + 1; rw [e1]; omega
  | ⟨2, _⟩ => show win0_13.index _ (2 : Fin 3) * 4096 ≤ (i 2).val ∧ (i 2).val < win0_13.index _ (2 : Fin 3) * 4096 + 4096; rw [e2]; omega

/-- What point t writes back to the result is block t of `regionOut`: the body's one store is the payload of the input
    blocks; every input block but the batch's is its whole array, the batch's is rows 4096·t … 4096·t + 4095, and lane q of
    the block is entry (t, 0, q) of the result. -/
theorem flushed13_eq (c : Dev nD)
    (hX : ∀ i, ∃ x : ℝ, (m ((c.tc : Thread nD τ).loc main_arg0) : S1048576x8.Idx → EReal) i = (x : EReal))
    (hW1 : ∀ i, ∃ x : ℝ, (V m c main_v6 : S1024x8.Idx → EReal) i = (x : EReal))
    (hB1 : ∀ i, ∃ x : ℝ, (V m c main_v14 : S1024x1.Idx → EReal) i = (x : EReal))
    (hW2 : ∀ i, ∃ x : ℝ, (m ((c.tc : Thread nD τ).loc main_arg3) : S128x1024.Idx → EReal) i = (x : EReal)) (t : Fin cfg0.N) :
    (dats (F := Ideal) m 0 c).flushed 13 t = ((cfg0.win 13).blk t).view.read (Elt Ideal) (regionOut m c) := by
  show (cfg0.win 13).cut (grid0.coords t) ((dats (F := Ideal) m 0 c).after 13 t) = _
  rw [after0_13]
  unfold out0_13
  rw [View.canon_unit_zero hz3]
  simp only [View.ld_unit_zero (S := S4096x8) hz2, View.ld_unit_zero (S := S1024x26) hz2, View.ld_unit_zero (S := S128x1024) hz2,
    View.ld_unit_zero (S := S128x1) hz2, View.ld_unit_zero (S := S64x128) hz2, View.ld_unit_zero (S := S64x1) hz2,
    View.ld_unit_zero (S := S32x64) hz2, View.ld_unit_zero (S := S32x1) hz2, View.ld_unit_zero (S := S16x32) hz2,
    View.ld_unit_zero (S := S16x1) hz2, View.ld_unit_zero (S := S1x16) hz2, View.ld_unit_zero (S := S1x1) hz2]
  obtain ⟨e00, e01, e0, e1, e2⟩ := idx_facts t
  funext y
  have hy0 : (y 0).val < 1 := (y 0).isLt
  refine (pay_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v6) (V m c main_v14) (m ((c.tc : Thread nD τ).loc main_arg3))
    (fun i => ?_) (fun p l => ?_) (fun i => ?_) (fun i => ?_) y).trans ?_
  · obtain ⟨r, hr⟩ := hX (((cfg0.win 0).blk t).view.emb i)
    exact ⟨r, (congrFun (V_main_arg0 m c) _).trans hr⟩
  · exact (congrFun (iblk1 m c t) (ix2 p l)).trans (Cert.KerEntry.waug_apply m c hW1 hB1 p l)
  · exact (congrFun (iblk2 m c t) i).trans (Cert.KerEntry.w2hi_apply m c i)
  · exact (congrFun (iblk3 m c t) i).trans (Cert.KerEntry.w2lo_apply m c hW2 i)
  · show _ = regionOut m c (((cfg0.win 13).blk t).view.emb y)
    unfold regionOut
    rw [iblk4 m c t, iblk5 m c t, iblk6 m c t, iblk7 m c t, iblk8 m c t, iblk9 m c t, iblk10 m c t, iblk11 m c t, iblk12 m c t]
    congr 1
    funext κ
    show V m c main_arg0 (((cfg0.win 0).blk t).view.emb (ix2 (y 2) κ)) = _
    rw [V_main_arg0]
    congr 1
    funext a
    apply Fin.ext
    match a with
    | ⟨0, _⟩ =>
      show win0_0.index t (0 : Fin 2) * 4096 + 1 * (y 2).val = 4096 * (win0_13.index t (0 : Fin 3) * 1 + 1 * (y 0).val) + (win0_13.index t (2 : Fin 3) * 4096 + 1 * (y 2).val)
      rw [e00, e0, e2]; omega
    | ⟨1, _⟩ => show win0_0.index t (1 : Fin 2) * 8 + 1 * κ.val = κ.val; rw [e01]; omega

/-- So after the run the region's result array is `regionOut`: the blocks tile it. -/
theorem final13 (c : Dev nD)
    (hX : ∀ i, ∃ x : ℝ, (m ((c.tc : Thread nD τ).loc main_arg0) : S1048576x8.Idx → EReal) i = (x : EReal))
    (hW1 : ∀ i, ∃ x : ℝ, (V m c main_v6 : S1024x8.Idx → EReal) i = (x : EReal))
    (hB1 : ∀ i, ∃ x : ℝ, (V m c main_v14 : S1024x1.Idx → EReal) i = (x : EReal))
    (hW2 : ∀ i, ∃ x : ℝ, (m ((c.tc : Thread nD τ).loc main_arg3) : S128x1024.Idx → EReal) i = (x : EReal)) :
    (dats (F := Ideal) m 0 c).arrAt 13 cfg0.N = regionOut m c :=
  (dats (F := Ideal) m 0 c).arrAt_eq_of_cover 13 (regionOut m c) (fun t _ => flushed13_eq m c hX hW1 hB1 hW2 t) cover13

/-- The two reshapes after the region keep row-major positions: row i of the [1048576, 1] column is entry
    (i / 4096, 0, i % 4096) of the [256, 1, 4096] array. -/
theorem reshapes_apply (A : S256x1x4096.Idx → EReal) (i : S1048576x1.Idx) :
    shapeCast S1048576x1 (shapeCast S1048576 A shapeCasts_S256x1x4096_S1048576) shapeCasts_S1048576_S1048576x1 i
      = A (ix3 (n0 := 256) (n1 := 1) (n2 := 4096) ⟨(i 0).val / 4096, by have h0 : (i 0).val < 1048576 := (i 0).isLt; omega⟩ 0
            ⟨(i 0).val % 4096, by omega⟩) := by
  have h0 : (i 0).val < 1048576 := (i 0).isLt
  have h1 : (i 1).val < 1 := (i 1).isLt
  refine (shapeCast_apply _ shapeCasts_S1048576_S1048576x1 i (ix1 (n := 1048576) (i 0)) ?_).trans ?_
  · rw [Shape.rowMajor_val_one, Shape.rowMajor_val_two]; show (i 0).val = (i 0).val * 1 + (i 1).val; omega
  · refine shapeCast_apply A shapeCasts_S256x1x4096_S1048576 (ix1 (n := 1048576) (i 0)) _ ?_
    rw [Shape.rowMajor_val_three, Shape.rowMajor_val_one]
    show ((i 0).val / 4096 * 1 + 0) * 4096 + (i 0).val % 4096 = (i 0).val
    omega

/-- The region's result array after the run, as the host lines after the region find it. -/
theorem region_arr (c : Dev nD)
    (hX : ∀ i, ∃ x : ℝ, (m ((c.tc : Thread nD τ).loc main_arg0) : S1048576x8.Idx → EReal) i = (x : EReal))
    (hW1 : ∀ i, ∃ x : ℝ, (V m c main_v6 : S1024x8.Idx → EReal) i = (x : EReal))
    (hB1 : ∀ i, ∃ x : ℝ, (V m c main_v14 : S1024x1.Idx → EReal) i = (x : EReal))
    (hW2 : ∀ i, ∃ x : ℝ, (m ((c.tc : Thread nD τ).loc main_arg3) : S128x1024.Idx → EReal) i = (x : EReal)) :
    Pipeline.withArrays spec0 c (V0 m c) (fun w => (dats (F := Ideal) m 0 c).arrAt w cfg0.N) (Proc.devRef .tc main_v29) = regionOut m c :=
  (Pipeline.withArrays_arr spec0 launch0.win.arr_inj c _ _ 13).trans (final13 m c hX hW1 hB1 hW2)

/-- In any state the frame run ends in, the result buffer holds `Net.result` of the region-entry operands, when the
    batch, the first layer's weight and bias as the region finds them, and the second layer's weight are finite. -/
theorem result_of_post (r : PUnit × MemSt nD τ sig (Elt Ideal))
    (h : Pipeline.FramePost cfgs (dats (F := Ideal) m) 0 (Pipeline.afterTail₀ cfgs (dats (F := Ideal) m) 0 (V0 m) [hostOps1]) r) (c : Dev nD)
    (hX : ∀ i, ∃ x : ℝ, (m ((c.tc : Thread nD τ).loc main_arg0) : S1048576x8.Idx → EReal) i = (x : EReal))
    (hW1 : ∀ i, ∃ x : ℝ, (V m c main_v6 : S1024x8.Idx → EReal) i = (x : EReal))
    (hB1 : ∀ i, ∃ x : ℝ, (V m c main_v14 : S1024x1.Idx → EReal) i = (x : EReal))
    (hW2 : ∀ i, ∃ x : ℝ, (m ((c.tc : Thread nD τ).loc main_arg3) : S128x1024.Idx → EReal) i = (x : EReal)) :
    r.2.mem ((c.tc : Thread nD τ).loc main_v31)
      = Cert.Net.result (V m c main_v6) (V m c main_v14) (m ((c.tc : Thread nD τ).loc main_arg3)) (V m c main_v24)
          (m ((c.tc : Thread nD τ).loc main_arg5)) (V m c main_v25) (m ((c.tc : Thread nD τ).loc main_arg7)) (V m c main_v26)
          (m ((c.tc : Thread nD τ).loc main_arg9)) (V m c main_v27) (m ((c.tc : Thread nD τ).loc main_arg11)) (V m c main_v28)
          (m ((c.tc : Thread nD τ).loc main_arg0)) := by
  refine ((h c).2 main_v31 (Pipeline.mem_restRefs_of main_v31 (by decide) (by decide))).trans ?_
  unfold Pipeline.afterTail₀
  show StableHlo.after hostOps1 _ (Proc.devRef .tc main_v31) = _
  after_results
  funext i
  have h0 : (i 0).val < 1048576 := (i 0).isLt
  refine (reshapes_apply (Pipeline.withArrays spec0 c (V0 m c) (fun w => (dats (F := Ideal) m 0 c).arrAt w cfg0.N) (Proc.devRef .tc main_v29)) i).trans ?_
  refine (congrFun (region_arr m c hX hW1 hB1 hW2) _).trans ?_
  have hrow : row ⟨(i 0).val / 4096, by omega⟩ ⟨(i 0).val % 4096, by omega⟩ = i 0 :=
    Fin.ext (by show 4096 * ((i 0).val / 4096) + (i 0).val % 4096 = (i 0).val; omega)
  show Cert.Net.netA (V m c main_v6) (V m c main_v14) (m ((c.tc : Thread nD τ).loc main_arg3)) (V m c main_v24) (m ((c.tc : Thread nD τ).loc main_arg5)) (V m c main_v25) (m ((c.tc : Thread nD τ).loc main_arg7)) (V m c main_v26) (m ((c.tc : Thread nD τ).loc main_arg9)) (V m c main_v27) (m ((c.tc : Thread nD τ).loc main_arg11)) (V m c main_v28)
      (fun κ => (m ((c.tc : Thread nD τ).loc main_arg0) : S1048576x8.Idx → EReal) (ix2 (row ⟨(i 0).val / 4096, by omega⟩ ⟨(i 0).val % 4096, by omega⟩) κ))
    = Cert.Net.netA (V m c main_v6) (V m c main_v14) (m ((c.tc : Thread nD τ).loc main_arg3)) (V m c main_v24) (m ((c.tc : Thread nD τ).loc main_arg5)) (V m c main_v25) (m ((c.tc : Thread nD τ).loc main_arg7)) (V m c main_v26) (m ((c.tc : Thread nD τ).loc main_arg9)) (V m c main_v27) (m ((c.tc : Thread nD τ).loc main_arg11)) (V m c main_v28)
      (fun κ => (m ((c.tc : Thread nD τ).loc main_arg0) : S1048576x8.Idx → EReal) (ix2 (i 0) κ))
  rw [hrow]

end Cert.KerValue

end
-- ==== Proof.ReferencePayload.lean ====
/-
  The reference kernel's payload at one output lane: the network on the batch row that lane holds.

  The body's input blocks are the transposed batch block xt [8, 4096] (lane q holds batch row q of the block), the
  first layer's weight [1024, 8] and bias column [1024, 1], and the later layers' weights and bias columns. Every
  product is a plain [a, k]·[k, 4096] product into a zero accumulator, so entry (p, q) is the sum over the
  contraction index; a bias column is broadcast along the lanes; the rectifier is the maximum with the zero constant.
  Read at (0, q), layer by layer, that is `Net.netA` on the column q of xt.
-/
import proofs.«120824_g2000504593560428_pallasbulk_1050_9_alg».proof.Proof.Gen.ReferenceIdeal.Skeleton
import proofs.«120824_g2000504593560428_pallasbulk_1050_9_alg».proof.Proof.Net
import proofs.«120824_g2000504593560428_pallasbulk_1050_9_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.RefPay

open Cert.ReferenceIdeal Cert.ReferenceIdeal.Gen
open Idealize.ShloMosaic Idealize.ShloMosaic.ValueIdx

/-- A column array [a, 1] broadcast along the lanes to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 zero word is the extended real zero. -/
theorem zero_word : (Scalar.ofBits .f32 0x00000000#32 : Ideal .f32) = 0 := Ideal.ofBits_zero_f32

section Layer
variable {a k b : ℕ} {d : DotDims ⟨2, ![a, k]⟩ ⟨2, ![k, b]⟩ ⟨2, ![a, b]⟩}

/-- One dense layer of the body at an entry: the plain product W·H into a zero accumulator plus the bias column B
    broadcast along the lanes is, at (p, q), (∑ κ, W p κ · H κ q) + B p: the dense layer on column q of H, at p. -/
theorem dense_apply (h : Cert.PlainDot.Plain d) (hr : d.contr.rank = 1) (hs : d.contr.size ⟨0, by omega⟩ = k)
    (W : FVec Ideal ⟨2, ![a, k]⟩ .f32) (B : FVec Ideal ⟨2, ![a, 1]⟩ .f32) (H : FVec Ideal ⟨2, ![k, b]⟩ .f32)
    (hc : (⟨2, ![a, 1]⟩ : Shape).ShapeCasts ⟨2, ![a, 1]⟩) (hb : (⟨2, ![a, 1]⟩ : Shape).Broadcasts ⟨2, ![a, b]⟩)
    (p : Fin a) (q : Fin b) :
    addf (matmul d none W H (constant ⟨2, ![a, b]⟩ .f32 0x00000000#32))
        (broadcastTo ⟨2, ![a, b]⟩ (shapeCast ⟨2, ![a, 1]⟩ B hc) hb) (ix2 p q)
      = Cert.Net.layer (Cert.Net.mat W) (Cert.Net.col B) (fun κ => H (ix2 κ q)) p := by
  refine (addf_apply _ _ _).trans ?_
  unfold Cert.Net.layer
  refine congrArg₂ (· + ·) (Cert.PlainDot.matmul_zero_apply h hr hs none W H p q) ?_
  refine (broadcastTo_a1_ab_apply _ hb p q).trans ?_
  exact congrFun (shapeCast_self B hc) _

/-- A rectified dense layer of the body at an entry: the maximum of the dense layer's entry with the broadcast zero
    is the rectified dense layer on column q of H, at p. -/
theorem relu_dense_apply (h : Cert.PlainDot.Plain d) (hr : d.contr.rank = 1) (hs : d.contr.size ⟨0, by omega⟩ = k)
    (W : FVec Ideal ⟨2, ![a, k]⟩ .f32) (B : FVec Ideal ⟨2, ![a, 1]⟩ .f32) (H : FVec Ideal ⟨2, ![k, b]⟩ .f32)
    (hc : (⟨2, ![a, 1]⟩ : Shape).ShapeCasts ⟨2, ![a, 1]⟩) (hb : (⟨2, ![a, 1]⟩ : Shape).Broadcasts ⟨2, ![a, b]⟩)
    (z : Ideal .f32) (hz : z = 0) (p : Fin a) (q : Fin b) :
    maximumf (addf (matmul d none W H (constant ⟨2, ![a, b]⟩ .f32 0x00000000#32))
        (broadcastTo ⟨2, ![a, b]⟩ (shapeCast ⟨2, ![a, 1]⟩ B hc) hb)) (broadcast ⟨2, ![a, b]⟩ z) (ix2 p q)
      = Cert.Net.relu (Cert.Net.layer (Cert.Net.mat W) (Cert.Net.col B) (fun κ => H (ix2 κ q))) p := by
  refine (maximumf_apply _ _ _).trans ?_
  unfold Cert.Net.relu
  exact congrArg₂ max (dense_apply h hr hs W B H hc hb p q) ((broadcast_apply z _).trans hz)

/-- Column q of a rectified dense layer of the body is the rectified dense layer on column q of its operand. -/
theorem relu_dense_col (h : Cert.PlainDot.Plain d) (hr : d.contr.rank = 1) (hs : d.contr.size ⟨0, by omega⟩ = k)
    (W : FVec Ideal ⟨2, ![a, k]⟩ .f32) (B : FVec Ideal ⟨2, ![a, 1]⟩ .f32) (H : FVec Ideal ⟨2, ![k, b]⟩ .f32)
    (hc : (⟨2, ![a, 1]⟩ : Shape).ShapeCasts ⟨2, ![a, 1]⟩) (hb : (⟨2, ![a, 1]⟩ : Shape).Broadcasts ⟨2, ![a, b]⟩)
    (z : Ideal .f32) (hz : z = 0) (q : Fin b) :
    (fun p : Fin a => maximumf (addf (matmul d none W H (constant ⟨2, ![a, b]⟩ .f32 0x00000000#32))
        (broadcastTo ⟨2, ![a, b]⟩ (shapeCast ⟨2, ![a, 1]⟩ B hc) hb)) (broadcast ⟨2, ![a, b]⟩ z) (ix2 p q))
      = Cert.Net.relu (Cert.Net.layer (Cert.Net.mat W) (Cert.Net.col B) (fun κ => H (ix2 κ q))) :=
  funext fun p => relu_dense_apply h hr hs W B H hc hb z hz p q

end Layer

/-- The reference body's stored value at lane `q` is the network on column `q` of the transposed batch block. -/
theorem pay_apply (x0 : Vec Ideal S8x4096 .f32) (x1 : Vec Ideal S1024x8 .f32) (x2 : Vec Ideal S1024x1 .f32)
    (x3 : Vec Ideal S128x1024 .f32) (x4 : Vec Ideal S128x1 .f32) (x5 : Vec Ideal S64x128 .f32) (x6 : Vec Ideal S64x1 .f32)
    (x7 : Vec Ideal S32x64 .f32) (x8 : Vec Ideal S32x1 .f32) (x9 : Vec Ideal S16x32 .f32) (x10 : Vec Ideal S16x1 .f32)
    (x11 : Vec Ideal S1x16 .f32) (x12 : Vec Ideal S1x1 .f32) (q : Fin 4096) :
    k0_pay1 (F := Ideal) (k0_pay2 (F := Ideal) x0 x1 x2 x3 x4 x5 x6 x7 x8) (Scalar.ofBits .f32 0x00000000#32) x9 x10 x11 x12 (ix2 0 q)
      = Cert.Net.netA x1 x2 x3 x4 x5 x6 x7 x8 x9 x10 x11 x12 (fun κ => x0 (ix2 κ q)) := by
  unfold k0_pay1 k0_pay2 Cert.Net.netA Cert.Net.net
  -- the last dense layer, at (0, q): the dense layer on column q of the rectified layer before it
  refine (dense_apply (d := dot_S1x16_S16x4096_S1x4096_1_0_0_1_n_n) ⟨rfl, rfl, rfl, rfl, rfl, rfl⟩ rfl rfl x11 x12 _ _ _ 0 q).trans ?_
  refine congrArg (fun h => Cert.Net.layer (Cert.Net.mat x11) (Cert.Net.col x12) h 0) ?_
  -- column q of each rectified layer (widths 16, 32, 64, 128, 1024) is that layer on column q of the one before it
  refine (relu_dense_col (d := dot_S16x32_S32x4096_S16x4096_1_0_0_1_n_n) ⟨rfl, rfl, rfl, rfl, rfl, rfl⟩ rfl rfl x9 x10 _ _ _ _ zero_word q).trans ?_
  refine congrArg (fun h => Cert.Net.relu (Cert.Net.layer (Cert.Net.mat x9) (Cert.Net.col x10) h)) ?_
  refine (relu_dense_col (d := dot_S32x64_S64x4096_S32x4096_1_0_0_1_n_n) ⟨rfl, rfl, rfl, rfl, rfl, rfl⟩ rfl rfl x7 x8 _ _ _ _ zero_word q).trans ?_
  refine congrArg (fun h => Cert.Net.relu (Cert.Net.layer (Cert.Net.mat x7) (Cert.Net.col x8) h)) ?_
  refine (relu_dense_col (d := dot_S64x128_S128x4096_S64x4096_1_0_0_1_n_n) ⟨rfl, rfl, rfl, rfl, rfl, rfl⟩ rfl rfl x5 x6 _ _ _ _ zero_word q).trans ?_
  refine congrArg (fun h => Cert.Net.relu (Cert.Net.layer (Cert.Net.mat x5) (Cert.Net.col x6) h)) ?_
  refine (relu_dense_col (d := dot_S128x1024_S1024x4096_S128x4096_1_0_0_1_n_n) ⟨rfl, rfl, rfl, rfl, rfl, rfl⟩ rfl rfl x3 x4 _ _ _ _ zero_word q).trans ?_
  refine congrArg (fun h => Cert.Net.relu (Cert.Net.layer (Cert.Net.mat x3) (Cert.Net.col x4) h)) ?_
  refine (relu_dense_col (d := dot_S1024x8_S8x4096_S1024x4096_1_0_0_1_n_n) ⟨rfl, rfl, rfl, rfl, rfl, rfl⟩ rfl rfl _ x2 _ _ _ _ zero_word q).trans ?_
  -- the first layer's weight and the batch block are cast to their own shapes: the identity
  rw [shapeCast_self x1, shapeCast_self x0]

end Cert.RefPay

end
-- ==== Proof.ReferenceValue.lean ====
/-
  The reference's result array, read off its frame run: row i of the [1048576, 1] result is the network on row i of
  the batch.

  The region's grid has 256 points; at point t the transposed batch's window is columns 4096·t … 4096·t + 4095 of the
  [8, 1048576] transpose (so its lane q holds batch row 4096·t + q), every other input window is its whole array, and
  the output window is columns 4096·t … of the [1, 1048576] result row, written back at every point. The blocks tile
  the row, so after the run the row at column j is the payload of point j / 4096 at lane j % 4096, which is the network
  on batch row j. The two reshapes after the region read the row as a [1048576] vector and then as a [1048576, 1]
  column: row-major positions are unchanged, so row i of the result is column i of the row.
-/
import proofs.«120824_g2000504593560428_pallasbulk_1050_9_alg».proof.Proof.Gen.ReferenceIdeal.Frame
import proofs.«120824_g2000504593560428_pallasbulk_1050_9_alg».proof.Proof.Net
import proofs.«120824_g2000504593560428_pallasbulk_1050_9_alg».proof.Proof.ReferencePayload
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.RefValue

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ)

/-- The offset vector (0, 0) is the constant zero function. -/
theorem hz : (![0, 0] : Fin 2 → Nat) = fun _ => 0 := funext fun a => by fin_cases a <;> rfl

/-- A grid point is below 256. -/
theorem t_lt (t : Fin cfg0.N) : t.val < 256 := lt_of_lt_of_eq t.isLt N_0

/-- The index maps at every point of the grid: the transposed batch's window and the output's window are at block
    (0, t) at point t; every other window is at block (0, 0). -/
theorem idx_facts : ∀ t : Fin cfg0.N,
    (win0_0.index t (0 : Fin 2) = 0 ∧ win0_0.index t (1 : Fin 2) = t.val)
    ∧ (win0_13.index t (0 : Fin 2) = 0 ∧ win0_13.index t (1 : Fin 2) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## The windows' blocks as parts of their arrays -/

/-- The transposed batch's window at point t holds columns 4096·t … 4096·t + 4095. -/
theorem blk0_read (t : Fin cfg0.N) (A : S8x1048576.Idx → EReal) (κ : Fin 8) (q : Fin 4096) :
    ((cfg0.win 0).blk t).view.read (Elt Ideal) A (ix2 κ q)
      = A (ix2 κ (⟨4096 * t.val + q.val, by have := t_lt t; have := q.isLt; omega⟩ : Fin 1048576)) := by
  obtain ⟨⟨e0, e1⟩, -⟩ := idx_facts t
  show A (((cfg0.win 0).blk t).view.emb (ix2 κ q)) = _
  refine congrArg A (funext fun a => Fin.ext ?_)
  match a with
  | ⟨0, _⟩ => show win0_0.index t (0 : Fin 2) * 8 + 1 * κ.val = κ.val; omega
  | ⟨1, _⟩ => show win0_0.index t (1 : Fin 2) * 4096 + 1 * q.val = 4096 * t.val + q.val; omega

/-- The output window at point t is columns 4096·t … 4096·t + 4095 of the result row. -/
theorem blk13_read (t : Fin cfg0.N) (G : S1x1048576.Idx → EReal) (q : Fin 4096) :
    ((cfg0.win 13).blk t).view.read (Elt Ideal) G (ix2 (0 : Fin 1) q)
      = G (ix2 (0 : Fin 1) (⟨4096 * t.val + q.val, by have := t_lt t; have := q.isLt; omega⟩ : Fin 1048576)) := by
  obtain ⟨-, ⟨e0, e1⟩, -⟩ := idx_facts t
  show G (((cfg0.win 13).blk t).view.emb (ix2 (0 : Fin 1) q)) = _
  refine congrArg G (funext fun a => Fin.ext ?_)
  match a with
  | ⟨0, _⟩ => show win0_13.index t (0 : Fin 2) * 1 + 1 * 0 = 0; omega
  | ⟨1, _⟩ => show win0_13.index t (1 : Fin 2) * 4096 + 1 * q.val = 4096 * t.val + q.val; omega

/-- The first layer's weight is staged whole: its window at any point reads the array itself. -/
theorem blk1_read (t : Fin cfg0.N) (A : S1024x8.Idx → EReal) : ((cfg0.win 1).blk t).view.read (Elt Ideal) A = A := by
  have e := (idx_facts t).2.2
  funext x
  show A (((cfg0.win 1).blk t).view.emb x) = A x
  refine congrArg A (funext fun a => Fin.ext ?_)
  match a with
  | ⟨0, _⟩ => show win0_1.index t (0 : Fin 2) * 1024 + 1 * (x 0).val = (x 0).val; omega
  | ⟨1, _⟩ => show win0_1.index t (1 : Fin 2) * 8 + 1 * (x 1).val = (x 1).val; omega

/-- The first layer's bias column is staged whole. -/
theorem blk2_read (t : Fin cfg0.N) (A : S1024x1.Idx → EReal) : ((cfg0.win 2).blk t).view.read (Elt Ideal) A = A := by
  have e := (idx_facts t).2.2
  funext x
  show A (((cfg0.win 2).blk t).view.emb x) = A x
  refine congrArg A (funext fun a => Fin.ext ?_)
  match a with
  | ⟨0, _⟩ => show win0_2.index t (0 : Fin 2) * 1024 + 1 * (x 0).val = (x 0).val; omega
  | ⟨1, _⟩ => show win0_2.index t (1 : Fin 2) * 1 + 1 * (x 1).val = (x 1).val; omega

/-- The second layer's weight is staged whole. -/
theorem blk3_read (t : Fin cfg0.N) (A : S128x1024.Idx → EReal) : ((cfg0.win 3).blk t).view.read (Elt Ideal) A = A := by
  have e := (idx_facts t).2.2
  funext x
  show A (((cfg0.win 3).blk t).view.emb x) = A x
  refine congrArg A (funext fun a => Fin.ext ?_)
  match a with
  | ⟨0, _⟩ => show win0_3.index t (0 : Fin 2) * 128 + 1 * (x 0).val = (x 0).val; omega
  | ⟨1, _⟩ => show win0_3.index t (1 : Fin 2) * 1024 + 1 * (x 1).val = (x 1).val; omega

/-- The second layer's bias column is staged whole. -/
theorem blk4_read (t : Fin cfg0.N) (A : S128x1.Idx → EReal) : ((cfg0.win 4).blk t).view.read (Elt Ideal) A = A := by
  have e := (idx_facts t).2.2
  funext x
  show A (((cfg0.win 4).blk t).view.emb x) = A x
  refine congrArg A (funext fun a => Fin.ext ?_)
  match a with
  | ⟨0, _⟩ => show win0_4.index t (0 : Fin 2) * 128 + 1 * (x 0).val = (x 0).val; omega
  | ⟨1, _⟩ => show win0_4.index t (1 : Fin 2) * 1 + 1 * (x 1).val = (x 1).val; omega

/-- The third layer's weight is staged whole. -/
theorem blk5_read (t : Fin cfg0.N) (A : S64x128.Idx → EReal) : ((cfg0.win 5).blk t).view.read (Elt Ideal) A = A := by
  have e := (idx_facts t).2.2
  funext x
  show A (((cfg0.win 5).blk t).view.emb x) = A x
  refine congrArg A (funext fun a => Fin.ext ?_)
  match a with
  | ⟨0, _⟩ => show win0_5.index t (0 : Fin 2) * 64 + 1 * (x 0).val = (x 0).val; omega
  | ⟨1, _⟩ => show win0_5.index t (1 : Fin 2) * 128 + 1 * (x 1).val = (x 1).val; omega

/-- The third layer's bias column is staged whole. -/
theorem blk6_read (t : Fin cfg0.N) (A : S64x1.Idx → EReal) : ((cfg0.win 6).blk t).view.read (Elt Ideal) A = A := by
  have e := (idx_facts t).2.2
  funext x
  show A (((cfg0.win 6).blk t).view.emb x) = A x
  refine congrArg A (funext fun a => Fin.ext ?_)
  match a with
  | ⟨0, _⟩ => show win0_6.index t (0 : Fin 2) * 64 + 1 * (x 0).val = (x 0).val; omega
  | ⟨1, _⟩ => show win0_6.index t (1 : Fin 2) * 1 + 1 * (x 1).val = (x 1).val; omega

/-- The fourth layer's weight is staged whole. -/
theorem blk7_read (t : Fin cfg0.N) (A : S32x64.Idx → EReal) : ((cfg0.win 7).blk t).view.read (Elt Ideal) A = A := by
  have e := (idx_facts t).2.2
  funext x
  show A (((cfg0.win 7).blk t).view.emb x) = A x
  refine congrArg A (funext fun a => Fin.ext ?_)
  match a with
  | ⟨0, _⟩ => show win0_7.index t (0 : Fin 2) * 32 + 1 * (x 0).val = (x 0).val; omega
  | ⟨1, _⟩ => show win0_7.index t (1 : Fin 2) * 64 + 1 * (x 1).val = (x 1).val; omega

/-- The fourth layer's bias column is staged whole. -/
theorem blk8_read (t : Fin cfg0.N) (A : S32x1.Idx → EReal) : ((cfg0.win 8).blk t).view.read (Elt Ideal) A = A := by
  have e := (idx_facts t).2.2
  funext x
  show A (((cfg0.win 8).blk t).view.emb x) = A x
  refine congrArg A (funext fun a => Fin.ext ?_)
  match a with
  | ⟨0, _⟩ => show win0_8.index t (0 : Fin 2) * 32 + 1 * (x 0).val = (x 0).val; omega
  | ⟨1, _⟩ => show win0_8.index t (1 : Fin 2) * 1 + 1 * (x 1).val = (x 1).val; omega

/-- The fifth layer's weight is staged whole. -/
theorem blk9_read (t : Fin cfg0.N) (A : S16x32.Idx → EReal) : ((cfg0.win 9).blk t).view.read (Elt Ideal) A = A := by
  have e := (idx_facts t).2.2
  funext x
  show A (((cfg0.win 9).blk t).view.emb x) = A x
  refine congrArg A (funext fun a => Fin.ext ?_)
  match a with
  | ⟨0, _⟩ => show win0_9.index t (0 : Fin 2) * 16 + 1 * (x 0).val = (x 0).val; omega
  | ⟨1, _⟩ => show win0_9.index t (1 : Fin 2) * 32 + 1 * (x 1).val = (x 1).val; omega

/-- The fifth layer's bias column is staged whole. -/
theorem blk10_read (t : Fin cfg0.N) (A : S16x1.Idx → EReal) : ((cfg0.win 10).blk t).view.read (Elt Ideal) A = A := by
  have e := (idx_facts t).2.2
  funext x
  show A (((cfg0.win 10).blk t).view.emb x) = A x
  refine congrArg A (funext fun a => Fin.ext ?_)
  match a with
  | ⟨0, _⟩ => show win0_10.index t (0 : Fin 2) * 16 + 1 * (x 0).val = (x 0).val; omega
  | ⟨1, _⟩ => show win0_10.index t (1 : Fin 2) * 1 + 1 * (x 1).val = (x 1).val; omega

/-- The last layer's weight row is staged whole. -/
theorem blk11_read (t : Fin cfg0.N) (A : S1x16.Idx → EReal) : ((cfg0.win 11).blk t).view.read (Elt Ideal) A = A := by
  have e := (idx_facts t).2.2
  funext x
  show A (((cfg0.win 11).blk t).view.emb x) = A x
  refine congrArg A (funext fun a => Fin.ext ?_)
  match a with
  | ⟨0, _⟩ => show win0_11.index t (0 : Fin 2) * 1 + 1 * (x 0).val = (x 0).val; omega
  | ⟨1, _⟩ => show win0_11.index t (1 : Fin 2) * 16 + 1 * (x 1).val = (x 1).val; omega

/-- The last layer's bias is staged whole. -/
theorem blk12_read (t : Fin cfg0.N) (A : S1x1.Idx → EReal) : ((cfg0.win 12).blk t).view.read (Elt Ideal) A = A := by
  have e := (idx_facts t).2.2
  funext x
  show A (((cfg0.win 12).blk t).view.emb x) = A x
  refine congrArg A (funext fun a => Fin.ext ?_)
  match a with
  | ⟨0, _⟩ => show win0_12.index t (0 : Fin 2) * 1 + 1 * (x 0).val = (x 0).val; omega
  | ⟨1, _⟩ => show win0_12.index t (1 : Fin 2) * 1 + 1 * (x 1).val = (x 1).val; omega

/-! ## The transposed batch -/

/-- The transposed batch, as the region finds it, is the transpose of the launched batch. -/
theorem V_v11 (c : Dev nD) :
    (V m c main_v11 : S8x1048576.Idx → EReal)
      = transpose S8x1048576 [1, 0] (m ((c.tc : Thread nD τ).loc main_arg0)) transposes_S1048576x8_S8x1048576_1_0 := by
  dsimp only [V, V0]
  simp only [hostOps0, hostOps0_1, hostOps0_2, List.flatten_cons, List.flatten_nil, List.append_nil, List.cons_append, List.nil_append]
  after_results

/-- Entry (κ, n) of the transpose of a [1048576, 8] array is its entry (n, κ). -/
theorem transpose_ix (X : S1048576x8.Idx → EReal) (κ : Fin 8) (n : Fin 1048576) :
    transpose S8x1048576 [1, 0] X transposes_S1048576x8_S8x1048576_1_0 (ix2 κ n) = X (ix2 n κ) := by
  refine transpose_apply [1, 0] X transposes_S1048576x8_S8x1048576_1_0 (ix2 κ n) (ix2 n κ) fun b => ?_
  match b with
  | ⟨0, _⟩ => rfl
  | ⟨1, _⟩ => rfl

/-! ## The result row -/

/-- The network's value depends only on its operands. -/
theorem netA_congr {W1 W1' : S1024x8.Idx → EReal} {B1 B1' : S1024x1.Idx → EReal} {W2 W2' : S128x1024.Idx → EReal}
    {B2 B2' : S128x1.Idx → EReal} {W25 W25' : S64x128.Idx → EReal} {B25 B25' : S64x1.Idx → EReal}
    {W3 W3' : S32x64.Idx → EReal} {B3 B3' : S32x1.Idx → EReal} {W4 W4' : S16x32.Idx → EReal} {B4 B4' : S16x1.Idx → EReal}
    {W5 W5' : S1x16.Idx → EReal} {B5 B5' : S1x1.Idx → EReal} {x x' : Fin 8 → EReal}
    (h1 : W1 = W1') (h2 : B1 = B1') (h3 : W2 = W2') (h4 : B2 = B2') (h5 : W25 = W25') (h6 : B25 = B25') (h7 : W3 = W3')
    (h8 : B3 = B3') (h9 : W4 = W4') (h10 : B4 = B4') (h11 : W5 = W5') (h12 : B5 = B5') (hx : x = x') :
    Cert.Net.netA W1 B1 W2 B2 W25 B25 W3 B3 W4 B4 W5 B5 x = Cert.Net.netA W1' B1' W2' B2' W25' B25' W3' B3' W4' B4' W5' B5' x' := by
  subst h1 h2 h3 h4 h5 h6 h7 h8 h9 h10 h11 h12 hx
  rfl

/-- The region's [1, 1048576] result row: column j is the network's value on batch row j. -/
def row (c : Dev nD) : S1x1048576.Idx → EReal := fun j =>
  Cert.Net.netA (V m c main_v6) (V m c main_v10) (m ((c.tc : Thread nD τ).loc main_arg3)) (V m c main_v12)
    (m ((c.tc : Thread nD τ).loc main_arg5)) (V m c main_v13) (m ((c.tc : Thread nD τ).loc main_arg7)) (V m c main_v14)
    (m ((c.tc : Thread nD τ).loc main_arg9)) (V m c main_v15) (m ((c.tc : Thread nD τ).loc main_arg11)) (V m c main_v16)
    (fun κ => (m ((c.tc : Thread nD τ).loc main_arg0) : S1048576x8.Idx → EReal) (ix2 (⟨(j 1).val, idx2_lt1 j⟩ : Fin 1048576) κ))

/-- What point t writes back is block t of the result row: lane q of the payload is the network on the column q of the
    transposed batch's block, which is batch row 4096·t + q. -/
theorem flushed_eq (c : Dev nD) (t : Fin cfg0.N) :
    (dats (F := Ideal) m 0 c).flushed 13 t = ((cfg0.win 13).blk t).view.read (Elt Ideal) (row m c) := by
  show (cfg0.win 13).cut (grid0.coords t) ((dats (F := Ideal) m 0 c).after 13 t) = _
  rw [after0_13]
  unfold out0_13
  rw [View.canon_unit_zero hz]
  simp only [View.ld_unit_zero (S := S8x4096) hz, View.ld_unit_zero (S := S1024x8) hz, View.ld_unit_zero (S := S1024x1) hz,
    View.ld_unit_zero (S := S128x1024) hz, View.ld_unit_zero (S := S128x1) hz, View.ld_unit_zero (S := S64x128) hz,
    View.ld_unit_zero (S := S64x1) hz, View.ld_unit_zero (S := S32x64) hz, View.ld_unit_zero (S := S32x1) hz,
    View.ld_unit_zero (S := S16x32) hz, View.ld_unit_zero (S := S16x1) hz, View.ld_unit_zero (S := S1x16) hz,
    View.ld_unit_zero (S := S1x1) hz]
  funext y
  obtain ⟨q, rfl⟩ : ∃ q : Fin 4096, (y : S1x4096.Idx) = ix2 (0 : Fin 1) q :=
    ⟨y 1, funext fun a => match a with
      | ⟨0, _⟩ => Fin.ext (by have := idx2_lt0 (y : S1x4096.Idx); show (y 0).val = 0; omega)
      | ⟨1, _⟩ => rfl⟩
  refine (Cert.RefPay.pay_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) q).trans ?_
  refine Eq.trans ?_ (blk13_read t (row m c) q).symm
  unfold row
  exact netA_congr (blk1_read t (V m c main_v6)) (blk2_read t (V m c main_v10))
    ((blk3_read t (V m c main_arg3)).trans (V_main_arg3 m c)) (blk4_read t (V m c main_v12))
    ((blk5_read t (V m c main_arg5)).trans (V_main_arg5 m c)) (blk6_read t (V m c main_v13))
    ((blk7_read t (V m c main_arg7)).trans (V_main_arg7 m c)) (blk8_read t (V m c main_v14))
    ((blk9_read t (V m c main_arg9)).trans (V_main_arg9 m c)) (blk10_read t (V m c main_v15))
    ((blk11_read t (V m c main_arg11)).trans (V_main_arg11 m c)) (blk12_read t (V m c main_v16))
    (funext fun κ => ((blk0_read t (V m c main_v11) κ q).trans (congrFun (V_v11 m c) _)).trans (transpose_ix _ κ _))

/-! ## The blocks tile the row -/

/-- A column of the row is in point t's block iff each coordinate is in the block's range on its axis. -/
theorem mem_blk13 (t : Fin cfg0.N) (i : S1x1048576.Idx) :
    i ∈ ((cfg0.win 13).blk t).view.set ↔ ∀ a : Fin 2, win0_13.index t a * S1x4096.size a ≤ (i a).val ∧ (i a).val < win0_13.index t a * S1x4096.size a + S1x4096.size a := by
  show i ∈ ((View.whole main_v17).slice (win0_13.rect t)).set ↔ _
  rw [View.set_slice_whole, Rect.mem_set_unit]
  exact Iff.rfl

/-- Column j of the row lies in the block of point j / 4096, which is written back. -/
theorem cover13 (i : S1x1048576.Idx) :
    ∃ t : Fin cfg0.N, (cfg0.win 13).flush t = true ∧ i ∈ ((cfg0.win 13).blk t).view.set := by
  have hi0 : (i 0).val < 1 := idx2_lt0 i
  have hi1 : (i 1).val < 1048576 := idx2_lt1 i
  obtain ⟨t, ht⟩ : ∃ t : Fin cfg0.N, t.val = (i 1).val / 4096 :=
    ⟨⟨(i 1).val / 4096, by rw [show cfg0.N = 256 from N_0]; omega⟩, rfl⟩
  obtain ⟨-, ⟨e0, e1⟩, -⟩ := idx_facts t
  refine ⟨t, flush0_13 t, ?_⟩
  rw [mem_blk13]
  intro a
  match a with
  | ⟨0, _⟩ => show win0_13.index t (0 : Fin 2) * 1 ≤ (i 0).val ∧ (i 0).val < win0_13.index t (0 : Fin 2) * 1 + 1; omega
  | ⟨1, _⟩ => show win0_13.index t (1 : Fin 2) * 4096 ≤ (i 1).val ∧ (i 1).val < win0_13.index t (1 : Fin 2) * 4096 + 4096; omega

/-- After the run the region's output array is the result row. -/
theorem final (c : Dev nD) : (dats (F := Ideal) m 0 c).arrAt 13 cfg0.N = row m c :=
  (dats (F := Ideal) m 0 c).arrAt_eq_of_cover 13 (row m c) (fun t _ => flushed_eq m c t) cover13

/-! ## The two reshapes after the region -/

/-- The tail: the result buffer is the two reshapes of the region's output row. -/
theorem tail_eq (c : Dev nD) :
    Pipeline.afterTail₀ cfgs (dats (F := Ideal) m) 0 (V0 m) [hostOps1] c main_v19
      = shapeCast S1048576x1 (shapeCast S1048576 ((dats (F := Ideal) m 0 c).arrAt 13 cfg0.N) shapeCasts_S1x1048576_S1048576) shapeCasts_S1048576_S1048576x1 := by
  unfold Pipeline.afterTail₀
  show StableHlo.after hostOps1 _ (Proc.devRef .tc main_v19) = _
  after_results
  rw [show Pipeline.withArrays (cfgs 0).spec c (V0 m c) (fun w => (dats (F := Ideal) m 0 c).arrAt w (cfgs 0).N) (Proc.devRef .tc main_v17)
        = (dats (F := Ideal) m 0 c).arrAt 13 cfg0.N from Pipeline.withArrays_arr spec0 launch0.win.arr_inj c _ _ 13]
  rfl

/-- The two reshapes keep row-major positions: row i of the [1048576, 1] column is column i of the [1, 1048576] row. -/
theorem reshapes_apply (Z : S1x1048576.Idx → EReal) (i : Fin 1048576) :
    shapeCast S1048576x1 (shapeCast S1048576 Z shapeCasts_S1x1048576_S1048576) shapeCasts_S1048576_S1048576x1 (ix2 i (0 : Fin 1))
      = Z (ix2 (0 : Fin 1) i) := by
  refine (shapeCast_apply _ shapeCasts_S1048576_S1048576x1 (ix2 i (0 : Fin 1)) (ix1 i) ?_).trans ?_
  · rw [Shape.rowMajor_val_two, Shape.rowMajor_val_one]
    show i.val = i.val * 1 + 0
    omega
  · refine shapeCast_apply Z shapeCasts_S1x1048576_S1048576 (ix1 i) (ix2 (0 : Fin 1) i) ?_
    rw [Shape.rowMajor_val_two, Shape.rowMajor_val_one]
    show 0 * 1048576 + i.val = i.val
    omega

/-- In any state the frame run ends in, the result buffer holds `Net.result` of the region-entry operands. -/
theorem result_of_post (r : PUnit × MemSt nD τ sig (Elt Ideal))
    (h : Pipeline.FramePost cfgs (dats (F := Ideal) m) 0 (Pipeline.afterTail₀ cfgs (dats (F := Ideal) m) 0 (V0 m) [hostOps1]) r) (c : Dev nD) :
    r.2.mem ((c.tc : Thread nD τ).loc main_v19)
      = Cert.Net.result (V m c main_v6) (V m c main_v10) (m ((c.tc : Thread nD τ).loc main_arg3)) (V m c main_v12)
          (m ((c.tc : Thread nD τ).loc main_arg5)) (V m c main_v13) (m ((c.tc : Thread nD τ).loc main_arg7)) (V m c main_v14)
          (m ((c.tc : Thread nD τ).loc main_arg9)) (V m c main_v15) (m ((c.tc : Thread nD τ).loc main_arg11)) (V m c main_v16)
          (m ((c.tc : Thread nD τ).loc main_arg0)) := by
  refine ((h c).2 main_v19 (Pipeline.mem_restRefs_of main_v19 (by decide) (by decide))).trans ?_
  rw [tail_eq, final]
  funext i
  obtain ⟨n, rfl⟩ : ∃ n : Fin 1048576, (i : S1048576x1.Idx) = ix2 n (0 : Fin 1) :=
    ⟨i 0, funext fun a => match a with
      | ⟨0, _⟩ => rfl
      | ⟨1, _⟩ => Fin.ext (by have := idx2_lt1 (i : S1048576x1.Idx); show (i 1).val = 0; omega)⟩
  refine (reshapes_apply (row m c) n).trans ?_
  rfl

end Cert.RefValue

end
-- ==== Proof.Finite.lean ====
/-
  Finiteness, from the precondition: every entry of the batch, of the first layer's weight and bias as the region finds
  them, and of the second layer's weight is a real number.

  The precondition is the conjunction, over the thirteen arguments, of "every entry's absolute value is below +∞".
  For the batch and the second weight that is the claim. The first layer's weight as the region finds it is the
  Kronecker product of the 8×8 identity (a 0/1 array converted from a comparison of two index arrays) with the [128, 1]
  weight column: each entry is a product of a 0 or 1 with a finite entry of the column, hence real. Its bias is the
  [128] bias tiled: each entry is an entry of the bias.
-/
import proofs.«120824_g2000504593560428_pallasbulk_1050_9_alg».proof.Defs
import proofs.«120824_g2000504593560428_pallasbulk_1050_9_alg».proof.Proof.KernelIdealFrame
import proofs.«120824_g2000504593560428_pallasbulk_1050_9_alg».proof.Proof.Gen.Pre_finite_inputs
import Idealize.ShloMosaic.Lib.ValueIdx
import Idealize.ShloMosaic.Lib.ReduceAll
import Idealize.ShloMosaic.Lib.StableHlo.Run

set_option maxRecDepth 16384

noncomputable section

namespace Cert.Finite

open Cert.KernelIdeal Cert.KernelIdeal.Gen Cert.KernelIdeal.Fr
open Idealize.ShloMosaic Idealize.ShloMosaic.TcCoe Idealize.ShloMosaic.ValueIdx
open Idealize.SL Idealize.SL.Sem

/-- The empty-shape index set has one element. -/
instance subsingleton_scalarIdx : Subsingleton Cert.Pre_finite_inputs.S_.Idx := ⟨fun a b => funext fun d => d.elim0⟩

/-- An extended real whose absolute value is strictly below +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = (⊤ : EReal) := by
    simp [Ideal.ofBits, Ideal.ieee]
  change Ideal.cmp .olt (max x (-x)) (Ideal.ofBits .f32 0x7F800000#32) = 1#1 at h
  rw [htop] at h
  induction x using EReal.rec with
  | bot => exfalso; revert h; simp [Ideal.cmp]
  | coe r => exact ⟨r, rfl⟩
  | top => exfalso; revert h; simp [Ideal.cmp]

/-- If the conjunction over all entries of "|x i| < +∞" is true then every entry of x is a real number. -/
theorem all_real {s : Shape} {axes : List (Fin s.rank)} (hb : Cert.Pre_finite_inputs.S_.BroadcastsInDim s (![] : Fin 0 → Fin s.rank))
    (hr : s.ReducesTo axes Cert.Pre_finite_inputs.S_) (hu : 0 < Cert.Pre_finite_inputs.S_.numel) (x : FVec Ideal s .f32)
    (e : Host.reduce IntOp.andi (cmpf .olt (Host.absf x) (broadcastInDim s ![] hb (constant (F := Ideal) Cert.Pre_finite_inputs.S_ .f32 0x7F800000#32)))
      (constantI Cert.Pre_finite_inputs.S_ 1 1#1) hr hu ix0 = 1#1) (i : s.Idx) : ∃ r : ℝ, (x : s.Idx → EReal) i = (r : EReal) := by
  have h := Host.reduce_andi_all _ _ hr hu ix0 e i
  exact real_of_abs_lt (x i) h

/-- The precondition, read back for the first four arguments: every entry of each is a real number. -/
theorem args_real [hP : Cert.Pre_finite_inputs.Facts]
    (a0 : FVec Ideal Cert.Pre_finite_inputs.S1048576x8 .f32) (a1 : FVec Ideal Cert.Pre_finite_inputs.S128x1 .f32)
    (a2 : FVec Ideal Cert.Pre_finite_inputs.S128 .f32) (a3 : FVec Ideal Cert.Pre_finite_inputs.S128x1024 .f32)
    (a4 : FVec Ideal Cert.Pre_finite_inputs.S128 .f32) (a5 : FVec Ideal Cert.Pre_finite_inputs.S64x128 .f32)
    (a6 : FVec Ideal Cert.Pre_finite_inputs.S64 .f32) (a7 : FVec Ideal Cert.Pre_finite_inputs.S32x64 .f32)
    (a8 : FVec Ideal Cert.Pre_finite_inputs.S32 .f32) (a9 : FVec Ideal Cert.Pre_finite_inputs.S16x32 .f32)
    (a10 : FVec Ideal Cert.Pre_finite_inputs.S16 .f32) (a11 : FVec Ideal Cert.Pre_finite_inputs.S1x16 .f32)
    (a12 : FVec Ideal Cert.Pre_finite_inputs.S1 .f32)
    (h : Cert.Pre_finite_inputs.fn (F := Ideal) a0 a1 a2 a3 a4 a5 a6 a7 a8 a9 a10 a11 a12 = fun _ => 1#1) :
    (∀ i, ∃ r : ℝ, (a0 : _ → EReal) i = (r : EReal)) ∧ (∀ i, ∃ r : ℝ, (a1 : _ → EReal) i = (r : EReal))
    ∧ (∀ i, ∃ r : ℝ, (a2 : _ → EReal) i = (r : EReal)) ∧ (∀ i, ∃ r : ℝ, (a3 : _ → EReal) i = (r : EReal)) := by
  have h0 := congrFun h ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨e0, e1⟩, e2⟩, e3⟩, _⟩, _⟩, _⟩, _⟩, _⟩, _⟩, _⟩, _⟩, _⟩ := h0
  exact ⟨all_real _ _ _ a0 e0, all_real _ _ _ a1 e1, all_real _ _ _ a2 e2, all_real _ _ _ a3 e3⟩

/-- Under the precondition the first four argument arrays hold reals only. -/
theorem pre_args [hP : Cert.Pre_finite_inputs.Facts] (m : (ℓ : Loc nD τ sig) → Buf (Elt Ideal) ℓ) (hpre : Cert.Pre_KernelIdeal m) (c : Dev nD) :
    (∀ i, ∃ x : ℝ, (m ((c.tc : Thread nD τ).loc main_arg0) : S1048576x8.Idx → EReal) i = (x : EReal))
    ∧ (∀ i, ∃ x : ℝ, (m ((c.tc : Thread nD τ).loc main_arg1) : S128x1.Idx → EReal) i = (x : EReal))
    ∧ (∀ i, ∃ x : ℝ, (m ((c.tc : Thread nD τ).loc main_arg2) : S128.Idx → EReal) i = (x : EReal))
    ∧ (∀ i, ∃ x : ℝ, (m ((c.tc : Thread nD τ).loc main_arg3) : S128x1024.Idx → EReal) i = (x : EReal)) :=
  args_real _ _ _ _ _ _ _ _ _ _ _ _ _ (hpre c)

/-- An entry of a broadcast array is an entry of its operand: if the operand holds reals only, so does the broadcast. -/
theorem real_broadcastInDim {s t : Shape} (dims : Fin s.rank → Fin t.rank) (h : s.BroadcastsInDim t dims) (x : s.Idx → EReal)
    (hx : ∀ i, ∃ r : ℝ, x i = (r : EReal)) : ∀ j, ∃ r : ℝ, broadcastInDim t dims h x j = (r : EReal) :=
  fun _ => hx _

/-- An entry of a reshaped array is an entry of its operand: if the operand holds reals only, so does the reshape. -/
theorem real_shapeCast {s t : Shape} (x : s.Idx → EReal) (h : s.ShapeCasts t)
    (hx : ∀ i, ∃ r : ℝ, x i = (r : EReal)) : ∀ j, ∃ r : ℝ, shapeCast t x h j = (r : EReal) :=
  fun _ => hx _

/-- An unsigned integer word converted to a float is the real number it counts. -/
theorem real_uitofp {s : Shape} {w : Nat} (W : IVec s w) :
    ∀ i, ∃ r : ℝ, (uitofp (F := Ideal) .f32 W : s.Idx → EReal) i = (r : EReal) :=
  fun i => ⟨((W i).toNat : ℝ), rfl⟩

/-- The entrywise product of two arrays of reals is an array of reals. -/
theorem real_mulf {s : Shape} (X Y : s.Idx → EReal) (hX : ∀ i, ∃ r : ℝ, X i = (r : EReal)) (hY : ∀ i, ∃ r : ℝ, Y i = (r : EReal)) :
    ∀ i, ∃ r : ℝ, (mulf (F := Ideal) (φ := .f32) X Y : s.Idx → EReal) i = (r : EReal) := by
  intro i
  obtain ⟨a, ha⟩ := hX i
  obtain ⟨b, hb⟩ := hY i
  refine ⟨a * b, ?_⟩
  show X i * Y i = _
  rw [ha, hb, EReal.coe_mul]

/-- The first layer's weight as the region finds it is the Kronecker product of the 8×8 identity with the weight column:
    each entry is the product of a 0 or 1 (a converted comparison word) with an entry of the column. -/
theorem v6_real (m : (ℓ : Loc nD τ sig) → Buf (Elt Ideal) ℓ) (c : Dev nD)
    (h1 : ∀ i, ∃ x : ℝ, (m ((c.tc : Thread nD τ).loc main_arg1) : S128x1.Idx → EReal) i = (x : EReal)) :
    ∀ i, ∃ x : ℝ, (V m c main_v6 : S1024x8.Idx → EReal) i = (x : EReal) := by
  dsimp only [V, V0]
  simp only [hostOps0, hostOps0_1, hostOps0_2, List.flatten_cons, List.flatten_nil, List.append_nil, List.cons_append, List.nil_append]
  after_results_simp
  simp only [StableHlo.TRef.ofBuf, StableHlo.TRef.toBuf, cast_eq]
  exact real_shapeCast _ _ (real_mulf _ _
    (real_broadcastInDim _ _ _ (real_broadcastInDim _ _ _ (real_uitofp _)))
    (real_broadcastInDim _ _ _ (real_broadcastInDim _ _ _ h1)))

/-- The first layer's bias as the region finds it is the bias reshaped, tiled and reshaped: each entry is an entry of the bias. -/
theorem v14_real (m : (ℓ : Loc nD τ sig) → Buf (Elt Ideal) ℓ) (c : Dev nD)
    (h2 : ∀ i, ∃ x : ℝ, (m ((c.tc : Thread nD τ).loc main_arg2) : S128.Idx → EReal) i = (x : EReal)) :
    ∀ i, ∃ x : ℝ, (V m c main_v14 : S1024x1.Idx → EReal) i = (x : EReal) := by
  dsimp only [V, V0]
  simp only [hostOps0, hostOps0_1, hostOps0_2, List.flatten_cons, List.flatten_nil, List.append_nil, List.cons_append, List.nil_append]
  after_results_simp
  intro i
  exact h2 _

/-- Under the precondition the four operands the kernel's compensation terms subtract from themselves are finite. -/
theorem of_pre [hP : Cert.Pre_finite_inputs.Facts] (m : (ℓ : Loc nD τ sig) → Buf (Elt Ideal) ℓ) (hpre : Cert.Pre_KernelIdeal m) (c : Dev nD) :
    (∀ i, ∃ x : ℝ, (m ((c.tc : Thread nD τ).loc main_arg0) : S1048576x8.Idx → EReal) i = (x : EReal))
    ∧ (∀ i, ∃ x : ℝ, (V m c main_v6 : S1024x8.Idx → EReal) i = (x : EReal))
    ∧ (∀ i, ∃ x : ℝ, (V m c main_v14 : S1024x1.Idx → EReal) i = (x : EReal))
    ∧ (∀ i, ∃ x : ℝ, (m ((c.tc : Thread nD τ).loc main_arg3) : S128x1024.Idx → EReal) i = (x : EReal)) := by
  obtain ⟨h0, h1, h2, h3⟩ := pre_args m hpre c
  exact ⟨h0, v6_real m c h1, v14_real m c h2, h3⟩

end Cert.Finite

end
-- ==== Proof.Agree.lean ====
/-
  The operands both programs build by the same host operations are one function of the arguments.

  Each program computes, before its region, the Kronecker product of the 8×8 identity with the first layer's [128, 1]
  weight (the identity from a comparison of two index arrays, two broadcasts each, a product, a reshape to [1024, 8]),
  the first layer's bias tiled eight times as a [1024, 1] column (two reshapes, a broadcast, a reshape), and each later
  bias reshaped to a column. The operations and their dimension numbers are the same in the two programs, so from
  memories that agree on the argument the two results are equal.
-/
import proofs.«120824_g2000504593560428_pallasbulk_1050_9_alg».proof.Proof.KernelIdealFrame
import proofs.«120824_g2000504593560428_pallasbulk_1050_9_alg».proof.Proof.Gen.ReferenceIdeal.Frame
import Idealize.ShloMosaic.Lib.StableHlo.Run
import Idealize.ShloMosaic.PureOps.Ideal

set_option maxRecDepth 16384

noncomputable section

namespace Cert.Agree

open Idealize.ShloMosaic Idealize.ShloMosaic.TcCoe
open Idealize.SL Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxHeartbeats 4000000 in
theorem W1 (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Gen.V m' c Cert.ReferenceIdeal.main_v6 : (⟨2, ![1024, 8]⟩ : Shape).Idx → EReal) = (Cert.KernelIdeal.Fr.V m c Cert.KernelIdeal.main_v6 : (⟨2, ![1024, 8]⟩ : Shape).Idx → EReal) := by
  dsimp only [Cert.ReferenceIdeal.Gen.V, Cert.ReferenceIdeal.Gen.V0, Cert.KernelIdeal.Fr.V, Cert.KernelIdeal.Fr.V0]
  simp only [Cert.ReferenceIdeal.Gen.hostOps0, Cert.ReferenceIdeal.Gen.hostOps0_1, Cert.ReferenceIdeal.Gen.hostOps0_2, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

set_option maxHeartbeats 4000000 in
theorem B1 (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Gen.V m' c Cert.ReferenceIdeal.main_v10 : (⟨2, ![1024, 1]⟩ : Shape).Idx → EReal) = (Cert.KernelIdeal.Fr.V m c Cert.KernelIdeal.main_v14 : (⟨2, ![1024, 1]⟩ : Shape).Idx → EReal) := by
  dsimp only [Cert.ReferenceIdeal.Gen.V, Cert.ReferenceIdeal.Gen.V0, Cert.KernelIdeal.Fr.V, Cert.KernelIdeal.Fr.V0]
  simp only [Cert.ReferenceIdeal.Gen.hostOps0, Cert.ReferenceIdeal.Gen.hostOps0_1, Cert.ReferenceIdeal.Gen.hostOps0_2, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

set_option maxHeartbeats 4000000 in
theorem B2 (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.V m' c Cert.ReferenceIdeal.main_v12 : (⟨2, ![128, 1]⟩ : Shape).Idx → EReal) = (Cert.KernelIdeal.Fr.V m c Cert.KernelIdeal.main_v24 : (⟨2, ![128, 1]⟩ : Shape).Idx → EReal) := by
  dsimp only [Cert.ReferenceIdeal.Gen.V, Cert.ReferenceIdeal.Gen.V0, Cert.KernelIdeal.Fr.V, Cert.KernelIdeal.Fr.V0]
  simp only [Cert.ReferenceIdeal.Gen.hostOps0, Cert.ReferenceIdeal.Gen.hostOps0_1, Cert.ReferenceIdeal.Gen.hostOps0_2, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

set_option maxHeartbeats 4000000 in
theorem B25 (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Gen.V m' c Cert.ReferenceIdeal.main_v13 : (⟨2, ![64, 1]⟩ : Shape).Idx → EReal) = (Cert.KernelIdeal.Fr.V m c Cert.KernelIdeal.main_v25 : (⟨2, ![64, 1]⟩ : Shape).Idx → EReal) := by
  dsimp only [Cert.ReferenceIdeal.Gen.V, Cert.ReferenceIdeal.Gen.V0, Cert.KernelIdeal.Fr.V, Cert.KernelIdeal.Fr.V0]
  simp only [Cert.ReferenceIdeal.Gen.hostOps0, Cert.ReferenceIdeal.Gen.hostOps0_1, Cert.ReferenceIdeal.Gen.hostOps0_2, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

set_option maxHeartbeats 4000000 in
theorem B3 (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Gen.V m' c Cert.ReferenceIdeal.main_v14 : (⟨2, ![32, 1]⟩ : Shape).Idx → EReal) = (Cert.KernelIdeal.Fr.V m c Cert.KernelIdeal.main_v26 : (⟨2, ![32, 1]⟩ : Shape).Idx → EReal) := by
  dsimp only [Cert.ReferenceIdeal.Gen.V, Cert.ReferenceIdeal.Gen.V0, Cert.KernelIdeal.Fr.V, Cert.KernelIdeal.Fr.V0]
  simp only [Cert.ReferenceIdeal.Gen.hostOps0, Cert.ReferenceIdeal.Gen.hostOps0_1, Cert.ReferenceIdeal.Gen.hostOps0_2, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

set_option maxHeartbeats 4000000 in
theorem B4 (h : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Gen.V m' c Cert.ReferenceIdeal.main_v15 : (⟨2, ![16, 1]⟩ : Shape).Idx → EReal) = (Cert.KernelIdeal.Fr.V m c Cert.KernelIdeal.main_v27 : (⟨2, ![16, 1]⟩ : Shape).Idx → EReal) := by
  dsimp only [Cert.ReferenceIdeal.Gen.V, Cert.ReferenceIdeal.Gen.V0, Cert.KernelIdeal.Fr.V, Cert.KernelIdeal.Fr.V0]
  simp only [Cert.ReferenceIdeal.Gen.hostOps0, Cert.ReferenceIdeal.Gen.hostOps0_1, Cert.ReferenceIdeal.Gen.hostOps0_2, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

set_option maxHeartbeats 4000000 in
theorem B5 (h : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (Cert.ReferenceIdeal.Gen.V m' c Cert.ReferenceIdeal.main_v16 : (⟨2, ![1, 1]⟩ : Shape).Idx → EReal) = (Cert.KernelIdeal.Fr.V m c Cert.KernelIdeal.main_v28 : (⟨2, ![1, 1]⟩ : Shape).Idx → EReal) := by
  dsimp only [Cert.ReferenceIdeal.Gen.V, Cert.ReferenceIdeal.Gen.V0, Cert.KernelIdeal.Fr.V, Cert.KernelIdeal.Fr.V0]
  simp only [Cert.ReferenceIdeal.Gen.hostOps0, Cert.ReferenceIdeal.Gen.hostOps0_1, Cert.ReferenceIdeal.Gen.hostOps0_2, Cert.KernelIdeal.Gen.hostOps0, Cert.KernelIdeal.Gen.hostOps0_1, Cert.KernelIdeal.Gen.hostOps0_2,
    List.flatten_cons, List.flatten_nil, List.append_nil, List.cons_append, List.nil_append]
  after_results_simp
  rw [h]
  rfl

end Cert.Agree

end
-- ==== Proof.lean ====
/-
  The kernel program against its reference, over the extended reals.

  Both programs compute, for each of 1048576 batch rows x of length 8, a six-layer network: the first layer is
  W1·x + B1 with W1 the Kronecker product of the 8×8 identity with a [128, 1] weight column and B1 that layer's bias
  tiled eight times, then four rectified dense layers and one dense layer to a scalar. The reference transposes the
  batch and feeds its region blocks of 4096 columns; the kernel feeds its region blocks of 4096 rows, folds W1, B1 and
  the splits of W1, B1 and the batch into their rounded parts and the remainders into one product of contraction length
  26, and splits the second layer's weight the same way. On the extended reals a change of float format is the identity,
  so each remainder is a finite value minus itself, which is zero: this is where the precondition (every input finite)
  is used. With the remainders zero the length-26 contraction is W1·x + B1 and the second layer's two products are one,
  so both regions' payloads at a lane are the same network value on the same batch row, and after the write-backs and
  the two reshapes both result arrays are `Net.result`.

  The frames of the two kernel programs are proved by hand in Proof/KernelFrame.lean and Proof/KernelIdealFrame.lean;
  the reference's frame is its generated one. The one ledger entry (an extension of a truncation read as the
  identity) is its rule's statement.
-/
import proofs.«120824_g2000504593560428_pallasbulk_1050_9_alg».proof.Defs
import proofs.«120824_g2000504593560428_pallasbulk_1050_9_alg».proof.Proof.Gen.Kernel
import proofs.«120824_g2000504593560428_pallasbulk_1050_9_alg».proof.Proof.Gen.KernelIdeal
import proofs.«120824_g2000504593560428_pallasbulk_1050_9_alg».proof.Proof.Gen.ReferenceIdeal
import proofs.«120824_g2000504593560428_pallasbulk_1050_9_alg».proof.Proof.Gen.ReferenceIdeal.Frame
import proofs.«120824_g2000504593560428_pallasbulk_1050_9_alg».proof.Proof.Gen.Pre_finite_inputs
import proofs.«120824_g2000504593560428_pallasbulk_1050_9_alg».proof.Proof.KernelFrame
import proofs.«120824_g2000504593560428_pallasbulk_1050_9_alg».proof.Proof.KernelIdealFrame
import proofs.«120824_g2000504593560428_pallasbulk_1050_9_alg».proof.Proof.KernelValue
import proofs.«120824_g2000504593560428_pallasbulk_1050_9_alg».proof.Proof.ReferenceValue
import proofs.«120824_g2000504593560428_pallasbulk_1050_9_alg».proof.Proof.Finite
import proofs.«120824_g2000504593560428_pallasbulk_1050_9_alg».proof.Proof.Agree
import Idealize.ShloMosaic.Adequacy
import Idealize.ShloMosaic.Init

set_option maxRecDepth 16384

noncomputable section

namespace Cert.Proof.RefFrame

open Cert.ReferenceIdeal Cert.ReferenceIdeal.Gen
open Idealize.ShloMosaic Idealize.ShloMosaic.TcCoe Idealize.SL Idealize.SL.Sem

/-- In any state the reference's frame run ends in, its argument arrays hold their launch contents: a staged argument
    is an input array, left at its entry contents; any other is outside the pipeline and untouched by the reshapes
    after the region. -/
theorem frame_post (m' : (ℓ : Loc nD τ sig) → Buf (Elt Ideal) ℓ) (r : PUnit × MemSt nD τ sig (Elt Ideal))
    (h : Pipeline.FramePost cfgs (dats (F := Ideal) m') 0 (Pipeline.afterTail₀ cfgs (dats (F := Ideal) m') 0 (V0 m') [hostOps1]) r) (c : Dev nD) :
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  ⟨(((h c).2 main_arg0 (Pipeline.mem_restRefs_of main_arg0 (by decide) (by decide))).trans (W_main_arg0 m' (dats m') c)),
    (((h c).2 main_arg1 (Pipeline.mem_restRefs_of main_arg1 (by decide) (by decide))).trans (W_main_arg1 m' (dats m') c)),
    (((h c).2 main_arg2 (Pipeline.mem_restRefs_of main_arg2 (by decide) (by decide))).trans (W_main_arg2 m' (dats m') c)),
    ((h c).1 3).trans (((dats m' 0 c).arrAt_in 3 rfl _).trans ((A_eq m' c 3).trans (V_main_arg3 m' c))),
    (((h c).2 main_arg4 (Pipeline.mem_restRefs_of main_arg4 (by decide) (by decide))).trans (W_main_arg4 m' (dats m') c)),
    ((h c).1 5).trans (((dats m' 0 c).arrAt_in 5 rfl _).trans ((A_eq m' c 5).trans (V_main_arg5 m' c))),
    (((h c).2 main_arg6 (Pipeline.mem_restRefs_of main_arg6 (by decide) (by decide))).trans (W_main_arg6 m' (dats m') c)),
    ((h c).1 7).trans (((dats m' 0 c).arrAt_in 7 rfl _).trans ((A_eq m' c 7).trans (V_main_arg7 m' c))),
    (((h c).2 main_arg8 (Pipeline.mem_restRefs_of main_arg8 (by decide) (by decide))).trans (W_main_arg8 m' (dats m') c)),
    ((h c).1 9).trans (((dats m' 0 c).arrAt_in 9 rfl _).trans ((A_eq m' c 9).trans (V_main_arg9 m' c))),
    (((h c).2 main_arg10 (Pipeline.mem_restRefs_of main_arg10 (by decide) (by decide))).trans (W_main_arg10 m' (dats m') c)),
    ((h c).1 11).trans (((dats m' 0 c).arrAt_in 11 rfl _).trans ((A_eq m' c 11).trans (V_main_arg11 m' c))),
    (((h c).2 main_arg12 (Pipeline.mem_restRefs_of main_arg12 (by decide) (by decide))).trans (W_main_arg12 m' (dats m') c))⟩

end Cert.Proof.RefFrame

namespace Cert.Proof

open Idealize.ShloMosaic Idealize.ShloMosaic.TcCoe Idealize.SL Idealize.SL.Sem

theorem frame_kernel [Cert.Kernel.Facts] [Cert.Pre_finite_inputs.Facts] : Cert.frame_Kernel := fun m ρ _ => Cert.Kernel.Fr.frame m ρ
theorem frame_kernelIdeal [Cert.KernelIdeal.Facts] [Cert.Pre_finite_inputs.Facts] : Cert.frame_KernelIdeal := fun m ρ _ => Cert.KernelIdeal.Fr.frame m ρ
theorem frame_referenceIdeal [Cert.ReferenceIdeal.Facts] [Cert.Pre_finite_inputs.Facts] : Cert.frame_ReferenceIdeal := fun m ρ _ => Cert.ReferenceIdeal.Gen.frame m ρ

/-- The ledger's one entry: widening a narrowed [4096, 8] block back is the identity on the extended reals. -/
theorem preserves : Cert.preserves_Kernel_KernelIdeal :=
  IdealRules.truncf_extf.statement Cert.KernelIdeal.S4096x8 .f32 .bf16

/-- Both runs end with the result array at `Net.result` of operands that agree. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.Net.result (Cert.KernelIdeal.Fr.V m c Cert.KernelIdeal.main_v6) (Cert.KernelIdeal.Fr.V m c Cert.KernelIdeal.main_v14) (m ((c.tc : Thread Cert.KernelIdeal.nD Cert.KernelIdeal.τ).loc Cert.KernelIdeal.main_arg3)) (Cert.KernelIdeal.Fr.V m c Cert.KernelIdeal.main_v24)
      (m ((c.tc : Thread Cert.KernelIdeal.nD Cert.KernelIdeal.τ).loc Cert.KernelIdeal.main_arg5)) (Cert.KernelIdeal.Fr.V m c Cert.KernelIdeal.main_v25) (m ((c.tc : Thread Cert.KernelIdeal.nD Cert.KernelIdeal.τ).loc Cert.KernelIdeal.main_arg7)) (Cert.KernelIdeal.Fr.V m c Cert.KernelIdeal.main_v26)
      (m ((c.tc : Thread Cert.KernelIdeal.nD Cert.KernelIdeal.τ).loc Cert.KernelIdeal.main_arg9)) (Cert.KernelIdeal.Fr.V m c Cert.KernelIdeal.main_v27) (m ((c.tc : Thread Cert.KernelIdeal.nD Cert.KernelIdeal.τ).loc Cert.KernelIdeal.main_arg11)) (Cert.KernelIdeal.Fr.V m c Cert.KernelIdeal.main_v28)
      (m ((c.tc : Thread Cert.KernelIdeal.nD Cert.KernelIdeal.τ).loc Cert.KernelIdeal.main_arg0)), ?_, ?_⟩
  · exact (θ_run Cert.KernelIdeal.defs _ _).mono (fun r h c =>
      ⟨Cert.KerValue.result_of_post m r h c (Cert.Finite.of_pre m hpre c).1 (Cert.Finite.of_pre m hpre c).2.1
          (Cert.Finite.of_pre m hpre c).2.2.1 (Cert.Finite.of_pre m hpre c).2.2.2,
        Cert.KernelIdeal.Fr.frame_post m (Cert.KernelIdeal.Fr.dats m) (Cert.KernelIdeal.Fr.A_eq m) r h c⟩)
      (Cert.KernelIdeal.Fr.run_main (F := Ideal) m ρ)
  · refine (θ_run Cert.ReferenceIdeal.defs _ _).mono (fun r h c => ⟨(Cert.RefValue.result_of_post m' r h c).trans ?_,
        Cert.Proof.RefFrame.frame_post m' r h c⟩) (Cert.ReferenceIdeal.Gen.run_main (F := Ideal) m' ρ')
    rw [Cert.Agree.W1 m m' c (hagree c).2.1, Cert.Agree.B1 m m' c (hagree c).2.2.1, Cert.Agree.B2 m m' c (hagree c).2.2.2.2.1, Cert.Agree.B25 m m' c (hagree c).2.2.2.2.2.2.1,
      Cert.Agree.B3 m m' c (hagree c).2.2.2.2.2.2.2.2.1, Cert.Agree.B4 m m' c (hagree c).2.2.2.2.2.2.2.2.2.2.1, Cert.Agree.B5 m m' c (hagree c).2.2.2.2.2.2.2.2.2.2.2.2,
      (hagree c).1, (hagree c).2.2.2.1, (hagree c).2.2.2.2.2.1, (hagree c).2.2.2.2.2.2.2.1, (hagree c).2.2.2.2.2.2.2.2.2.1, (hagree c).2.2.2.2.2.2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
